-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x768 : Shape := ⟨2, ![512, 768]⟩
abbrev S512 : Shape := ⟨1, ![512]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S512x768 .f32) (main_arg1 : IVec S512 32) : IVec S_ 1 :=
  let main_v0 : FVec F S512x768 .f32 := Host.absf main_arg0
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  let main_c_0 : IVec S_ 32 := constantI S_ 32 4294966784#32
  let main_v4 : IVec S512 32 := broadcastInDim S512 ![] bcast_S_S512 main_c_0
  let main_v5 : IVec S512 1 := cmpi .sge main_arg1 main_v4
  let main_c_1 : IVec S_ 32 := constantI S_ 32 512#32
  let main_v6 : IVec S512 32 := broadcastInDim S512 ![] bcast_S_S512 main_c_1
  let main_v7 : IVec S512 1 := cmpi .slt main_arg1 main_v6
  let main_v8 : IVec S512 1 := andi main_v5 main_v7
  let main_c_2 : IVec S_ 1 := constantI S_ 1 1#1
  let main_v9 : IVec S_ 1 := (fun x v => Host.reduce IntOp.andi x v reducesTo_S512_S_d0 h_S_) main_v8 main_c_2
  let main_v10 : IVec S_ 1 := andi main_v3 main_v9
  main_v10
-- ==== Kernel.lean ====
abbrev S512x768 : Shape := ⟨2, ![512, 768]⟩
abbrev S512 : Shape := ⟨1, ![512]⟩
abbrev S36 : Shape := ⟨1, ![36]⟩
abbrev S_ : Shape := ⟨0, ![]⟩
abbrev S512x1 : Shape := ⟨2, ![512, 1]⟩
abbrev S1 : Shape := ⟨1, ![1]⟩
abbrev S1x1 : Shape := ⟨2, ![1, 1]⟩
abbrev S36x8x128 : Shape := ⟨3, ![36, 8, 128]⟩
abbrev S64x768 : Shape := ⟨2, ![64, 768]⟩
abbrev S1x8x128 : Shape := ⟨3, ![1, 8, 128]⟩
abbrev S64x64x256 : Shape := ⟨3, ![64, 64, 256]⟩
abbrev S64x256 : Shape := ⟨2, ![64, 256]⟩
abbrev S64x1x256 : Shape := ⟨3, ![64, 1, 256]⟩
abbrev S1x64x256 : Shape := ⟨3, ![1, 64, 256]⟩
abbrev S64x64 : Shape := ⟨2, ![64, 64]⟩
abbrev S64 : Shape := ⟨1, ![64]⟩
abbrev S64x1 : Shape := ⟨2, ![64, 1]⟩
abbrev S1x1x1 : Shape := ⟨3, ![1, 1, 1]⟩

abbrev nBuf : Space → Nat
  | .hbm => 28
  | .vmem => 6
  | .smem => 2
  | _ => 0

abbrev bufTy : (tb : Table) → Fin (tcTables nBuf tb) → BufTy
  | .hbm, ⟨0, _⟩ => ⟨S512x768, .f32⟩
  | .hbm, ⟨1, _⟩ => ⟨S512, .i32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S1, .i32⟩
  | .hbm, ⟨11, _⟩ => ⟨S_, .i32⟩
  | .hbm, ⟨12, _⟩ => ⟨S512x1, .i32⟩
  | .hbm, ⟨13, _⟩ => ⟨S512x1, .i1⟩
  | .hbm, ⟨14, _⟩ => ⟨S1x1, .i32⟩
  | .hbm, ⟨15, _⟩ => ⟨S512x1, .i32⟩
  | .hbm, ⟨16, _⟩ => ⟨S512x1, .i1⟩
  | .hbm, ⟨17, _⟩ => ⟨S512x1, .i1⟩
  | .hbm, ⟨18, _⟩ => ⟨S_, .i1⟩
  | .hbm, ⟨19, _⟩ => ⟨S512, .i1⟩
  | .hbm, ⟨20, _⟩ => ⟨S512x768, .f32⟩
  | .hbm, ⟨21, _⟩ => ⟨S512x768, .i1⟩
  | .hbm, ⟨22, _⟩ => ⟨S_, .f32⟩
  | .hbm, ⟨23, _⟩ => ⟨S512x768, .f32⟩
  | .hbm, ⟨24, _⟩ => ⟨S512x768, .f32⟩
  | .hbm, ⟨25, _⟩ => ⟨S36x8x128, .f32⟩
  | .hbm, ⟨26, _⟩ => ⟨S_, .f32⟩
  | .hbm, ⟨27, _⟩ => ⟨S_, .f32⟩
  | .local _ .vmem, ⟨0, _⟩ => ⟨S64x768, .f32⟩
  | .local _ .vmem, ⟨1, _⟩ => ⟨S64x768, .f32⟩
  | .local _ .vmem, ⟨2, _⟩ => ⟨S64x768, .f32⟩
  | .local _ .vmem, ⟨3, _⟩ => ⟨S64x768, .f32⟩
  | .local _ .vmem, ⟨4, _⟩ => ⟨S1x8x128, .f32⟩
  | .local _ .vmem, ⟨5, _⟩ => ⟨S1x8x128, .f32⟩
  | .local _ .smem, ⟨0, _⟩ => ⟨S36, .i32⟩
  | .local _ .smem, ⟨1, _⟩ => ⟨S36, .i32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x768_0 : S512.BroadcastsInDim S512x768 (![0] : Fin 1 → Fin S512x768.rank)
  bcast_S_S512x768 : S_.BroadcastsInDim S512x768 (![] : Fin 0 → Fin S512x768.rank)
  numel1_S1 : S1.numel = 1
  inb_S64x768_S64x256_0_0 : ∀ a, (![0, 0] : Fin 2 → Nat) a + S64x256.size a ≤ S64x768.size a
  h_S64x256 : 0 < S64x256.numel
  shapeCasts_S64x256_S64x256 : S64x256.ShapeCasts S64x256
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  inb_S64x768_S64x256_0_256 : ∀ a, (![0, 256] : Fin 2 → Nat) a + S64x256.size a ≤ S64x768.size a
  inb_S64x768_S64x256_0_512 : ∀ a, (![0, 512] : Fin 2 → Nat) a + S64x256.size a ≤ S64x768.size a
  reduces_S64x64x256_S64x64 : S64x64x256.Reduces [2] S64x64
  iota_S64x64_d0_w32 : S64x64.Iotas .tc 32 [0]
  iota_S64x64_d1_w32 : S64x64.Iotas .tc 32 [1]
  reduces_S64x64_S64 : S64x64.Reduces [1] S64
  shapeCasts_S64_S64x1 : S64.ShapeCasts S64x1
  reduces_S64x1_S1 : S64x1.Reduces [0] S1
  shapeCasts_S1_S1x1 : S1.ShapeCasts S1x1
  iota_S1x8x128_d2_w32 : S1x8x128.Iotas .tc 32 [2]
  iota_S1x8x128_d1_w32 : S1x8x128.Iotas .tc 32 [1]
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S36x8x128_S_d0_1_2 : S36x8x128.ReducesTo [0, 1, 2] S_
  gather_S512x768_S512x1_S512x768_1_0_n_n_0_1_1768_wf : GatherDims.WF S512x768 S512x1 S512x768 [1] [0] [] [0] [] 1 ![1, 768]
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S36x8x128.size a
  hwx0_2 : ∀ i : grid0.Coords, EltTy.bits .f32 = 32 ∨ (Rect.block (s := S36x8x128) S1x8x128.size (cc0_transform_2 i) (hinb0_2 i)).WholeWords (EltTy.packing .f32)

variable [Facts₀]

def gather_S512x768_S512x1_S512x768_1_0_n_n_0_1_1768 : GatherDims S512x768 S512x1 S512x768 where
  offsetDims := [1]
  collapsedSliceDims := [0]
  operandBatchingDims := []
  startIndicesBatchingDims := []
  startIndexMap := [0]
  indexVectorDim := 1
  sliceSizes := ![1, 768]
  wf := gather_S512x768_S512x1_S512x768_1_0_n_n_0_1_1768_wf

abbrev spec0_0 : Pipeline.WinSpec sig grid0.rank :=
  Pipeline.WinSpec.ofSpec (Memref.whole main_v0) S64x768.size reads0_0 false false 2 stage0_0 sem0_0 nbuf0_0 hstage0_0

abbrev spec0_1 : Pipeline.WinSpec sig grid0.rank :=
  Pipeline.WinSpec.ofSpec (Memref.whole main_v0) S64x768.size reads0_1 false false 2 stage0_1 sem0_1 nbuf0_1 hstage0_1

abbrev spec0_2 : Pipeline.WinSpec sig grid0.rank :=
  Pipeline.WinSpec.ofSpec (Memref.whole main_v1) S1x8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S64x768.size a ≤ S512x768.size a), EltTy.bits .f32 = 32 ∨ (Rect.block (s := S512x768) S64x768.size (cc0_transform_0 k0_off1_inb numel1_S1 pf i) h).WholeWords (EltTy.packing .f32)) ∧
  (∀ i : grid0.Coords, ∃ h : (∀ a, (cc0_transform_1 k0_off1_inb numel1_S1 pf i a + 1) * S64x768.size a ≤ S512x768.size a), EltTy.bits .f32 = 32 ∨ (Rect.block (s := S512x768) S64x768.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S512x768 : Shape := ⟨2, ![512, 768]⟩
abbrev S512 : Shape := ⟨1, ![512]⟩
abbrev S_ : Shape := ⟨0, ![]⟩
abbrev S512x1 : Shape := ⟨2, ![512, 1]⟩
abbrev S512x1x768 : Shape := ⟨3, ![512, 1, 768]⟩
abbrev S1x512x768 : Shape := ⟨3, ![1, 512, 768]⟩
abbrev S512x512x768 : Shape := ⟨3, ![512, 512, 768]⟩
abbrev S512x512 : Shape := ⟨2, ![512, 512]⟩

abbrev nBuf : Space → Nat
  | .hbm => 44
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512, .i32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x768, .f32⟩
  | .hbm, ⟨11, _⟩ => ⟨S512x1x768, .f32⟩
  | .hbm, ⟨12, _⟩ => ⟨S1x512x768, .f32⟩
  | .hbm, ⟨13, _⟩ => ⟨S512x512x768, .f32⟩
  | .hbm, ⟨14, _⟩ => ⟨S512x512x768, .f32⟩
  | .hbm, ⟨15, _⟩ => ⟨S512x512x768, .f32⟩
  | .hbm, ⟨16, _⟩ => ⟨S_, .f32⟩
  | .hbm, ⟨17, _⟩ => ⟨S512x512x768, .f32⟩
  | .hbm, ⟨18, _⟩ => ⟨S512x512x768, .f32⟩
  | .hbm, ⟨19, _⟩ => ⟨S512x512x768, .f32⟩
  | .hbm, ⟨20, _⟩ => ⟨S_, .f32⟩
  | .hbm, ⟨21, _⟩ => ⟨S512x512, .f32⟩
  | .hbm, ⟨22, _⟩ => ⟨S_, .i1⟩
  | .hbm, ⟨23, _⟩ => ⟨S512x512, .i1⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .i1⟩
  | .hbm, ⟨31, _⟩ => ⟨S512x512, .i1⟩
  | .hbm, ⟨32, _⟩ => ⟨S512x512, .i1⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S_, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v17 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512x768_S512x1x768_0_2 : S512x768.BroadcastsInDim S512x1x768 (![0, 2] : Fin 2 → Fin S512x1x768.rank)
  bcast_S512x768_S1x512x768_1_2 : S512x768.BroadcastsInDim S1x512x768 (![1, 2] : Fin 2 → Fin S1x512x768.rank)
  bcast_S512x1x768_S512x512x768_0_1_2 : S512x1x768.BroadcastsInDim S512x512x768 (![0, 1, 2] : Fin 3 → Fin S512x512x768.rank)
  bcast_S1x512x768_S512x512x768_0_1_2 : S1x512x768.BroadcastsInDim S512x512x768 (![0, 1, 2] : Fin 3 → Fin S512x512x768.rank)
  bcast_S_S512x512x768 : S_.BroadcastsInDim S512x512x768 (![] : Fin 0 → Fin S512x512x768.rank)
  reducesTo_S512x512x768_S512x512_d2 : S512x512x768.ReducesTo [2] S512x512
  h_S_ : 0 < S_.numel
  bcast_S_S512x512 : S_.BroadcastsInDim S512x512 (![] : Fin 0 → Fin S512x512.rank)
  reducesTo_S512x512_S_d0_1 : S512x512.ReducesTo [0, 1] S_
  gather_S512x768_S512x1_S512x768_1_0_n_n_0_1_1768_wf : GatherDims.WF S512x768 S512x1 S512x768 [1] [0] [] [0] [] 1 ![1, 768]

variable [Facts₀]

def gather_S512x768_S512x1_S512x768_1_0_n_n_0_1_1768 : GatherDims S512x768 S512x1 S512x768 where
  offsetDims := [1]
  collapsedSliceDims := [0]
  operandBatchingDims := []
  startIndicesBatchingDims := []
  startIndexMap := [0]
  indexVectorDim := 1
  sliceSizes := ![1, 768]
  wf := gather_S512x768_S512x1_S512x768_1_0_n_n_0_1_1768_wf

class Facts : Prop extends Facts₀ where

variable [Facts]
-- ==== Proof.Body.lean ====
/-
  The kernel's body at one grid point.

  The body reads the point's two table words, loads the three 256-column chunks of each of its two staged 64-row
  blocks, forms the tile's value from them, and stores one 1 × 8 × 128 block whole into the output's staging
  buffer. Run from the two tables, the two input blocks and the output buffer held, it returns them with the
  output buffer overwritten by that block; nothing else is touched.
-/
import proofs.«412813_j26139170964397_3_alg».proof.Proof.Gen.KernelIdeal.Skeleton
import proofs.«412813_j26139170964397_3_alg».proof.Proof.Gen.KernelIdeal.Launch
import Idealize.ShloMosaic.Lib.Tactic
import Idealize.ShloMosaic.Lib.Pipeline.Kit

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents type, and the buffer held at a share at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The word of a 36-entry table at the grid point's own position. -/
abbrev wordAt (c : Dev nD) (i : grid0.Coords) (Mt : Memref sig .tc .smem S36 .i32) (tb : Bf (F := F) c Mt) : Elt F .i32 :=
  View.readAt (Elt F) Mt.view (Rect.unit (s := S36) (k0_off1 i) S1.size (k0_off1_inb i)).toLoadRect tb
    (Shape.Idx.first (Nat.one_pos : 0 < 1))

/-- Columns `off … off + 255` of a staged 64 × 768 block. -/
abbrev chunk (c : Dev nD) (M : Memref sig .tc .vmem S64x768 .f32) (x : Bf (F := F) c M) (off : Nat)
    (h : ∀ a, (![0, off] : Fin 2 → Nat) a + S64x256.size a ≤ S64x768.size a) : Vec F S64x256 .f32 :=
  View.readAt (Elt F) M.view (Rect.unit (s := S64x768) ![0, off] S64x256.size h).toLoadRect x

/-- The block the body stores: the tile's value placed at lane 0 of sublane 0, zero elsewhere, as the body's
    arithmetic on the two table words and the six chunks. -/
def outVal (c : Dev nD) (i : grid0.Coords) (M3 M4 : Memref sig .tc .vmem S64x768 .f32)
    (t0 : Bf (F := F) c (Memref.whole main_c)) (t1 : Bf (F := F) c (Memref.whole main_c_0))
    (x : Bf (F := F) c M3) (y : Bf (F := F) c M4) : FVec F S1x8x128 .f32 :=
  k0_pay1 (wordAt c i (Memref.whole main_c) t0) (wordAt c i (Memref.whole main_c_0) t1)
    (k0_pay2 (chunk c M3 x 0 inb_S64x768_S64x256_0_0) (chunk c M4 y 0 inb_S64x768_S64x256_0_0)
      (chunk c M3 x 256 inb_S64x768_S64x256_0_256) (chunk c M4 y 256 inb_S64x768_S64x256_0_256))
    (k0_pay3 (chunk c M3 x 512 inb_S64x768_S64x256_0_512) (chunk c M4 y 512 inb_S64x768_S64x256_0_512))

/-- The body's run: tables and input blocks handed back as found (at whatever shares they were held), the output
    buffer overwritten whole by `outVal`. -/
theorem kernelRun (c : Dev nD) (i : grid0.Coords)
    (M3 M4 : Memref sig .tc .vmem S64x768 .f32) (h3 : M3.IsWhole) (h4 : M4.IsWhole)
    (M5 : Memref sig .tc .vmem S1x8x128 .f32) (h5 : M5.IsWhole) (q0 q1 : PosShare TreeShare)
    (t0 : Bf (F := F) c (Memref.whole main_c)) (t1 : Bf (F := F) c (Memref.whole main_c_0))
    (x : Bf (F := F) c M3) (y : Bf (F := F) c M4) (z : Bf (F := F) c M5) (Q : PUnit → sProp 𝕄) :
    iprop(pt c (Memref.whole main_c) q0 t0 ∗ pt c (Memref.whole main_c_0) q1 t1
      ∗ pt c M3 fullShare x ∗ pt c M4 fullShare y ∗ pt c M5 fullShare z
      ∗ (iprop(pt c (Memref.whole main_c) q0 t0 ∗ pt c (Memref.whole main_c_0) q1 t1
            ∗ pt c M3 fullShare x ∗ pt c M4 fullShare y
            ∗ pt c M5 fullShare (M5.view.writes (Elt F) z
                [⟨Rect.unit (s := S1x8x128) ![0, 0, 0] S1x8x128.size inb_S1x8x128_S1x8x128_0_0_0, outVal c i M3 M4 t0 t1 x y⟩])) -∗ Q ⟨⟩))
    ⊢ wp frame (wpE (defs₀ (F := F)) Variants.none c none) Set.univ
        (cc0__kernel i (Memref.whole main_c) (Memref.isWhole_whole _) (Memref.whole main_c_0) (Memref.isWhole_whole _) M3 h3 M4 h4 M5 h5) Q := by
  iintro ⟨Ht0, Ht1, H3, H4, H5, Hk⟩
  sl_unfold [cc0__kernel]
  sl_exec
  sl_unfold_words
  sl_step
  iapply Hk
  isplitl [Ht0]; · iexact Ht0
  isplitl [Ht1]; · iexact Ht1
  isplitl [H3]; · iexact H3
  isplitl [H4]; · iexact H4
  iexact H5

end Cert.Proof.KI

end
-- ==== Proof.Layout.lean ====
/-
  The pipeline's tables and index maps in closed form.

  The kernel visits the 36 tile pairs (a, b), a ≤ b, of an 8 × 8 grid of 64-row blocks; two constant tables give
  a and b at each grid point, window 0 stages row-block a, window 1 row-block b of the gathered array, and the
  output window's block at point t is block t of the 36 × 8 × 128 result. Every table entry is at most 7, so
  every staged block lies inside the 512-row array.
-/
import proofs.«412813_j26139170964397_3_alg».proof.Proof.Gen.KernelIdeal.Launch

noncomputable section

namespace Cert.Proof.KI

open Cert.KernelIdeal Cert.KernelIdeal.Gen
open Idealize.ShloMosaic Idealize.ShloMosaic.TcCoe

variable {F : FTy → Type} [FloatOps F]

/-- The two tables' contents: the row-block and the column-block of each tile. -/
def tbl : pre0.Contents (Elt F) := fun
  | 0 => fun i => lit0 (S36.rowMajor i)
  | 1 => fun i => lit1 (S36.rowMajor i)
  | ⟨_ + 2, h⟩ => absurd h (Nat.not_lt.2 (Nat.le_add_left _ _))

/-- No table entry exceeds 7: -/
theorem lit0_le : ∀ j : Fin 36, (lit0 j).toNat ≤ 7 := by decide
theorem lit1_le : ∀ j : Fin 36, (lit1 j).toNat ≤ 7 := by decide

/-- so every 64-row block the tables select lies inside the 512-row array (a table entry e gives rows 64e … 64e + 63,
    and (e + 1) · 64 ≤ 512), all 768 columns of it; the elements are whole words. -/
theorem ok_tbl : ok0 (F := F) tbl := by
  refine ⟨fun i => ⟨fun a => ?_, .inl rfl⟩, fun i => ⟨fun a => ?_, .inl rfl⟩⟩
  · match a with
    | ⟨0, _⟩ =>
      show ((lit0 (S36.rowMajor _)).toNat + 1) * 64 ≤ 512
      exact Nat.mul_le_mul_right 64 (Nat.succ_le_succ (lit0_le _))
    | ⟨1, _⟩ => show (0 + 1) * 768 ≤ 768; omega
  · match a with
    | ⟨0, _⟩ =>
      show ((lit1 (S36.rowMajor _)).toNat + 1) * 64 ≤ 512
      exact Nat.mul_le_mul_right 64 (Nat.succ_le_succ (lit1_le _))
    | ⟨1, _⟩ => show (0 + 1) * 768 ≤ 768; omega

/-- The pipeline is run at these tables. -/
def adm : (p : Fin 1) → (pcfgs (F := F) p).Adm := fun _ => ⟨tbl, ok_tbl⟩

/-- The pipeline at the tables' contents. -/
abbrev cfgA : Pipeline.Cfg sig Λ₀ := cfg0 (adm (F := F) 0)

end Cert.Proof.KI

end
-- ==== Proof.Data.lean ====
/-
  The pipeline's proof data: what each staging buffer holds after the body at each of the 36 grid points.

  Before the region, the host has written the two tables and gathered the rows; the windows' arrays are the
  gathered array (twice: the row block and the column block are cut from the same array) and the 36 × 8 × 128
  result. The body only reads its two input blocks, so after it they hold the blocks they held; it overwrites the
  output block whole with the tile's block. The invariant carried from point to point is the two tables, which
  the body reads and returns, and the scoped buffers no window stages (there are none).
-/
import proofs.«412813_j26139170964397_3_alg».proof.Proof.Body
import proofs.«412813_j26139170964397_3_alg».proof.Proof.Layout
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.StableHlo.Run

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents along @main -/

/-- Core `c`'s buffers at launch, -/
abbrev V₀ (c : Dev nD) : Valuation τ sig (Elt F) := fun b => (s₀ m ρ).mem ((c : Dev nD), b)
/-- after the two table constants are written, -/
abbrev V1 (c : Dev nD) : Valuation τ sig (Elt F) := StableHlo.after hostOps0 (V₀ m ρ c)
/-- and after the rows are gathered: what the region is entered with. -/
abbrev V2v (c : Dev nD) : Valuation τ sig (Elt F) := StableHlo.after hostOps0_1 (V1 m ρ c)
abbrev V2 (c : Dev nD) (b : Ref sig .tc) : Buf (Elt F) ((c : Thread nD τ).loc b) := V2v m ρ c b

/-! ## The proof data -/

/-- The three 256-column chunks of a 64 × 768 block. -/
abbrev ck (X : S64x768.Idx → Elt F .f32) (off : Nat) (h : ∀ a, (![0, off] : Fin 2 → Nat) a + S64x256.size a ≤ S64x768.size a) :
    Vec F S64x256 .f32 := View.ld X (Rect.unit (s := S64x768) ![0, off] S64x256.size h)

/-- The block the body stores, from the point's two table words and its two input blocks. -/
def outBlk (w0 w1 : BitVec 32) (X Y : S64x768.Idx → Elt F .f32) : FVec F S1x8x128 .f32 :=
  k0_pay1 w0 w1
    (k0_pay2 (ck X 0 inb_S64x768_S64x256_0_0) (ck Y 0 inb_S64x768_S64x256_0_0)
      (ck X 256 inb_S64x768_S64x256_0_256) (ck Y 256 inb_S64x768_S64x256_0_256))
    (k0_pay3 (ck X 512 inb_S64x768_S64x256_0_512) (ck Y 512 inb_S64x768_S64x256_0_512))

/-- The block of window `w`'s array at grid point `t`. -/
abbrev inBlk (c : Dev nD) (w : Fin 3) (t : Fin (cfgA (F := F)).N) : ((cfgA (F := F)).win w).block.Idx → Elt F ((cfgA (F := F)).win w).elt :=
  (((cfgA (F := F)).win w).blk t).view.read (Elt F) (V2 m ρ c (Pipeline.arrRef spec0 w))

/-- Each table's word at the grid point's own position. -/
abbrev tw0 (t : Fin (cfgA (F := F)).N) : BitVec 32 :=
  (tbl (F := F)).at 0 (Rect.unit (s := S36) (k0_off1 (grid0.coords t)) S1.size (k0_off1_inb (grid0.coords t))) numel1_S1
abbrev tw1 (t : Fin (cfgA (F := F)).N) : BitVec 32 :=
  (tbl (F := F)).at 1 (Rect.unit (s := S36) (k0_off1 (grid0.coords t)) S1.size (k0_off1_inb (grid0.coords t))) numel1_S1

/-- The invariant between points: the two tables at their contents, and the scoped buffers no window stages. -/
def Φc (c : Dev nD) : sProp 𝕄 :=
  iprop(Pipeline.prefHeld pre0 c (fun _ => fullShare) (tbl (F := F))
    ∗ Pipeline.scopedRest (Ix := Unit) (Name := ℕ) (U := UR sig nD τ) (Lvl := ℕ) (Val := Elt F) spec0 c)

/-- The proof data on core `c`. The gathered array is held in two halves, one per input window. -/
def dats (_ : Fin 1) (c : Dev nD) : Dat τ (Elt F) Unit ℕ (UR sig nD τ) ℕ (cfgA (F := F)) c where
  A w := V2 m ρ c (Pipeline.arrRef spec0 w)
  after w t := match w with
    | ⟨0, _⟩ => inBlk m ρ c 0 t
    | ⟨1, _⟩ => inBlk m ρ c 1 t
    | ⟨2, _⟩ => outBlk (tw0 (F := F) t) (tw1 (F := F) t) (inBlk m ρ c 0 t) (inBlk m ρ c 1 t)
  Φ _ := Φc c
  q w := match w with
    | ⟨0, _⟩ => fullShare.left
    | ⟨1, _⟩ => fullShare.right
    | ⟨2, _⟩ => fullShare
  owed _ := 0

abbrev 𝒱₀ : Variants := Variants.none

/-! ## What the staging buffers hold when the body runs -/

/-- An input window's buffer holds the block of its array at the point's block index, whether the block was fetched
    at this point or at an earlier one with the same index. -/
theorem before_in0 (c : Dev nD) (t : Fin (cfgA (F := F)).N) (d) : (dats m ρ 0 c).before 0 t d = inBlk m ρ c 0 t := by
  rw [(dats m ρ 0 c).before_in_eq_fetched 0 rfl (fun _ => rfl) (fun _ _ _ => rfl) (fun _ => rfl) t d]
  rfl

theorem before_in1 (c : Dev nD) (t : Fin (cfgA (F := F)).N) (d) : (dats m ρ 0 c).before 1 t d = inBlk m ρ c 1 t := by
  rw [(dats m ρ 0 c).before_in_eq_fetched 1 rfl (fun _ => rfl) (fun _ _ _ => rfl) (fun _ => rfl) t d]
  rfl

end Cert.Proof.KI

end
-- ==== Proof.Oblig.lean ====
/-
  The body obligation: at every grid point, from the invariant and the three current staging buffers at what
  they hold when the body runs, the body runs to the invariant and the buffers at what the proof data says it
  leaves — the two input blocks as found, the output block overwritten whole by the tile's block.
-/
import proofs.«412813_j26139170964397_3_alg».proof.Proof.Data

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- The two tables conjoined one by one. -/
theorem bigSep_T2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- A chunk loaded from a whole staging buffer whose block reads `X` is that chunk of `X`. -/
theorem chunk_unread (c : Dev nD) (M : Memref sig .tc .vmem S64x768 .f32) (h : M.IsWhole) (X : S64x768.Idx → Elt F .f32) (off : Nat)
    (hb : ∀ a, (![0, off] : Fin 2 → Nat) a + S64x256.size a ≤ S64x768.size a) :
    chunk c M (h.unread X) off hb = ck X off hb := by
  unfold chunk ck
  rw [View.readAt_eq_ld, h.read_unread]

/-- Each table's word, read through the whole table, is the table's entry at the point's position. -/
theorem word0_eq (c : Dev nD) (i : grid0.Coords) :
    wordAt c i (Memref.whole main_c) (tbl (F := F) 0)
      = (tbl (F := F)).at 0 (Rect.unit (s := S36) (k0_off1 i) S1.size (k0_off1_inb i)) numel1_S1 := rfl
theorem word1_eq (c : Dev nD) (i : grid0.Coords) :
    wordAt c i (Memref.whole main_c_0) (tbl (F := F) 1)
      = (tbl (F := F)).at 1 (Rect.unit (s := S36) (k0_off1 i) S1.size (k0_off1_inb i)) numel1_S1 := rfl

/-- The one store covers the whole output block, so afterwards the buffer reads as the stored value, which is the
    tile's block of the point's two table words and two input blocks. -/
theorem out_pure (c : Dev nD) (t : Fin (cfgA (F := F)).N)
    (h3 : (stage0_0 ((cfgA (F := F)).slots t 0)).IsWhole) (h4 : (stage0_1 ((cfgA (F := F)).slots t 1)).IsWhole)
    (f2 : BufTy.Contents (Elt F) (stage0_2 ((cfgA (F := F)).slots t 2)).view.ty) :
    View.read (Elt F) (stage0_2 ((cfgA (F := F)).slots t 2)).view
        ((stage0_2 ((cfgA (F := F)).slots t 2)).view.writes (Elt F) f2
          [⟨Rect.unit (s := S1x8x128) ![0, 0, 0] S1x8x128.size inb_S1x8x128_S1x8x128_0_0_0,
            outVal c (grid0.coords t) (stage0_0 ((cfgA (F := F)).slots t 0)) (stage0_1 ((cfgA (F := F)).slots t 1)) (tbl (F := F) 0) (tbl (F := F) 1)
              (h3.unread (inBlk m ρ c 0 t)) (h4.unread (inBlk m ρ c 1 t))⟩])
      = outBlk (tw0 (F := F) t) (tw1 (F := F) t) (inBlk m ρ c 0 t) (inBlk m ρ c 1 t) := by
  have hz : (![0, 0, 0] : Fin 3 → Nat) = fun _ => 0 := by funext a; fin_cases a <;> rfl
  rw [View.read_writes_eq_canon _ _ _ (fun y => ⟨_, List.mem_singleton_self _, View.mem_set_unit_zero hz inb_S1x8x128_S1x8x128_0_0_0 y⟩),
    View.canon_unit_zero hz]
  unfold outVal outBlk
  rw [word0_eq, word1_eq]
  rw [chunk_unread c _ h3, chunk_unread c _ h3, chunk_unread c _ h3, chunk_unread c _ h4, chunk_unread c _ h4, chunk_unread c _ h4]

/-- The body's program at a point is the kernel function called at the point's coordinates, the two tables and the
    windows' current staging buffers. -/
theorem body_at (t : Fin (cfgA (F := F)).N) :
    defs₀ (F := F) Proc.tc (0 : Fin 1) (t, (cfgA (F := F)).slots t)
      = cc0__kernel (grid0.coords t) (Memref.whole main_c) (Memref.isWhole_whole _) (Memref.whole main_c_0) (Memref.isWhole_whole _)
          (stage0_0 ((cfgA (F := F)).slots t 0)) (hstage0_0 ((cfgA (F := F)).slots t 0))
          (stage0_1 ((cfgA (F := F)).slots t 1)) (hstage0_1 ((cfgA (F := F)).slots t 1))
          (stage0_2 ((cfgA (F := F)).slots t 2)) (hstage0_2 ((cfgA (F := F)).slots t 2)) := rfl

theorem body_obligation (c : Dev nD) : BodyObligation (dats m ρ 0 c) (defs₀ (F := F)) 𝒱₀ () Set.univ := fun t => by
  rw [bigSep_W0, bigSep_W0]
  dsimp only
  rw [show (dats m ρ 0 c).Φ t.castSucc = Φc c from rfl, show (dats m ρ 0 c).Φ t.succ = Φc c from rfl]
  unfold Φc Dat.owesAt Pipeline.owesWithin; rw [scopedRest0_eq]
  rw [show (dats m ρ 0 c).owed t.castSucc = 0 from rfl, show (dats m ρ 0 c).owed t.succ = 0 from rfl]
  simp only [before_in0 m ρ c t, before_in1 m ρ c t]
  rw [show (dats m ρ 0 c).after 0 t = inBlk m ρ c 0 t from rfl, show (dats m ρ 0 c).after 1 t = inBlk m ρ c 1 t from rfl,
    show (dats m ρ 0 c).after 2 t = outBlk (tw0 (F := F) t) (tw1 (F := F) t) (inBlk m ρ c 0 t) (inBlk m ρ c 1 t) from rfl]
  unfold Pipeline.prefHeld owns
  rw [bigSep_T2]
  dsimp only
  have h3 := hstage0_0 (cfgA.slots t 0)
  have h4 := hstage0_1 (cfgA.slots t 1)
  have h5 := hstage0_2 (cfgA.slots t 2)
  rw [h3.set_eq_univ, h4.set_eq_univ, h5.set_eq_univ]
  iintro ⟨⟨⟨Ht0, Ht1⟩, -⟩, ⟨%W, %hW, HO⟩, ⟨%d0, %f0, %hf0, H0⟩, ⟨%d1, %f1, %hf1, H1⟩, ⟨%d2, %f2, %hf2, H2⟩⟩
  obtain rfl := h3.eq_unread hf0
  obtain rfl := h4.eq_unread hf1
  rw [before_in0 m ρ c t d0, before_in1 m ρ c t d1]
  rw [body_at (F := F) t]
  iapply (kernelRun c (grid0.coords t) (stage0_0 ((cfgA (F := F)).slots t 0)) (stage0_1 ((cfgA (F := F)).slots t 1)) h3 h4
    (stage0_2 ((cfgA (F := F)).slots t 2)) h5 fullShare fullShare (tbl (F := F) 0) (tbl (F := F) 1)
    (h3.unread (inBlk m ρ c 0 t)) (h4.unread (inBlk m ρ c 1 t)) f2)
  isplitl [Ht0]; · iexact Ht0
  isplitl [Ht1]; · iexact Ht1
  isplitl [H0]; · iexact H0
  isplitl [H1]; · iexact H1
  isplitl [H2]; · iexact H2
  iintro ⟨Ht0, Ht1, H0, H1, H2⟩
  isplitl [Ht0 Ht1]
  · isplitl [Ht0 Ht1]
    · isplitl [Ht0]; · iexact Ht0
      iexact Ht1
    iempintro
  isplitl [HO]
  · iexists W; isplitr; · ipureintro; exact fun _ _ => Or.inl trivial
    iexact HO
  isplitl [H0]
  · iexists _; isplitr; · ipureintro; exact h3.read_unread _
    iexact H0
  isplitl [H1]
  · iexists _; isplitr; · ipureintro; exact h4.read_unread _
    iexact H1
  iexists _; isplitr; swap; · iexact H2
  ipureintro
  exact out_pure m ρ c t h3 h4 f2

end Cert.Proof.KI

end
-- ==== Proof.Bufs.lean ====
/-
  The buffers around the region.

  Entering the region, the TensorCore's unscoped buffers are sorted out into the windows' arrays, the two tables
  and the rest. The gathered array is read by both input windows and written by neither, so it is split into two
  halves, one per window; the result's buffer goes whole to the output window. Leaving the region the halves are
  joined again and the result's buffer holds what the write-backs left; every other buffer is as it was.
-/
import proofs.«412813_j26139170964397_3_alg».proof.Proof.Data

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the region: the result's buffer holds what the 36 write-backs left, everything else is as the
    gather left it. -/
def V3 (c : Dev nD) : Valuation τ sig (Elt F) :=
  Function.update (V2v m ρ c) (Proc.devRef .tc main_v1) ((dats m ρ 0 c).arrAt 2 (cfgA (F := F)).N)

/-! ## The tables when the region is entered -/

theorem V1_c (c : Dev nD) : V1 m ρ c (Proc.devRef .tc main_c) = tbl (F := F) 0 := by
  show StableHlo.after hostOps0 (V₀ m ρ c) (Proc.devRef .tc main_c) = _
  after_results
  rfl

theorem V1_c_0 (c : Dev nD) : V1 m ρ c (Proc.devRef .tc main_c_0) = tbl (F := F) 1 := by
  show StableHlo.after hostOps0 (V₀ m ρ c) (Proc.devRef .tc main_c_0) = _
  after_results
  rfl

/-- The gather writes neither argument and neither table. -/
theorem gather_keeps (V : Valuation τ sig (Elt F)) (b : Ref sig .tc)
    (hb : b = main_arg0 ∨ b = main_arg1 ∨ b = main_c ∨ b = main_c_0) :
    StableHlo.after (hostOps0_1 (F := F)) V (Proc.devRef .tc b) = V (Proc.devRef .tc b) := by
  rcases hb with rfl | rfl | rfl | rfl
  all_goals
    simp only [hostOps0_1]
    after_results_simp

/-- Both tables reach the region at their constants. -/
theorem V2_tables (c : Dev nD) : (fun k => V2 m ρ c (pre0.ref k)) = tbl (F := F) := by
  funext k
  match k with
  | ⟨0, _⟩ => exact (gather_keeps (V1 m ρ c) main_c (.inr (.inr (.inl rfl)))).trans (V1_c m ρ c)
  | ⟨1, _⟩ => exact (gather_keeps (V1 m ρ c) main_c_0 (.inr (.inr (.inr rfl)))).trans (V1_c_0 m ρ c)

/-! ## The proof data's arrays as points-tos -/

/-- The windows' arrays are whole buffers: `arrays` is each window's buffer at the window's share. -/
theorem arrays_shares (c : Dev nD) (G : (w : Fin (cfgA (F := F)).W) → Buf (Elt F) (((cfgA (F := F)).spec w).arr.view.loc (c : Thread nD τ))) :
    ((dats m ρ 0 c).arrays G : sProp 𝕄)
      = bigSep Finset.univ fun w => (((c : Thread nD τ).loc (Pipeline.arrRef (cfgA (F := F)).spec w)) ↦{(dats m ρ 0 c).share w} G w : sProp 𝕄) := by
  unfold Dat.arrays
  exact bigSep_congr fun w _ => by rw [(harr0 w).set_eq_univ]

/-- The buffers behind the arrays: the gathered array and the result's buffer. -/
theorem arrBufs_two (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- A TensorCore's unscoped buffers are those two, the two tables, and the rest. -/
theorem unscoped_split (c : Dev nD) (V : (b : Ref sig .tc) → Buf (Elt F) ((c : Thread nD τ).loc b)) :
    (unscopedBufs c V : sProp 𝕄)
      = iprop(((((c : Thread nD τ).loc main_v0) ↦{fullShare} V main_v0) ∗ (((c : Thread nD τ).loc main_v1) ↦{fullShare} V main_v1))
          ∗ Pipeline.prefHeld pre0 c (fun _ => fullShare) (fun k => V (pre0.ref k)) ∗ Pipeline.unscopedRestP pre0 spec0 c V) := by
  rw [Pipeline.unscopedBufs_split₀ (Pipeline.pin (pcfgs (F := F)) adm) (0 : Fin 1) winFacts₀0.arr_unscoped c V, Pipeline.unscopedRest_split preFacts0 c V,
    arrBufs_two]

/-! ## Entering and leaving the region -/

/-- A buffer held whole is held in two halves, and back. -/
theorem halve (c : Dev nD) (f : Buf (Elt F) ((c : Thread nD τ).loc main_v0)) :
    (((c : Thread nD τ).loc main_v0) ↦{fullShare} f : sProp 𝕄)
      ⊢ iprop((((c : Thread nD τ).loc main_v0) ↦{fullShare.left} f) ∗ (((c : Thread nD τ).loc main_v0) ↦{fullShare.right} f)) :=
  (pointsTo_share (PosShare.mem_left_op_right fullShare)).1
theorem rejoin (c : Dev nD) (f : Buf (Elt F) ((c : Thread nD τ).loc main_v0)) :
    iprop((((c : Thread nD τ).loc main_v0) ↦{fullShare.left} f) ∗ (((c : Thread nD τ).loc main_v0) ↦{fullShare.right} f))
      ⊢ (((c : Thread nD τ).loc main_v0) ↦{fullShare} f : sProp 𝕄) :=
  (pointsTo_share (PosShare.mem_left_op_right fullShare)).2

/-- ENTRY: the unscoped buffers as the gather left them give the windows' arrays at their entry contents (the gathered
    array halved between the two input windows), the two tables at their constants, and the rest. -/
theorem entry_split (c : Dev nD) :
    (StableHlo.held (c : Thread nD τ) (ucRefs τ sig) (V2v m ρ c) : sProp 𝕄)
      ⊢ iprop((dats m ρ 0 c).arrays ((dats m ρ 0 c).arrAt · 0) ∗ Pipeline.prefHeld pre0 c (fun _ => fullShare) (tbl (F := F))
          ∗ Pipeline.unscopedRestP pre0 spec0 c (V2 m ρ c)) := by
  rw [← Pipeline.unscopedBufs_held (Ix := Unit) (Name := ℕ) (U := UR sig nD τ) (Lvl := ℕ) c (V2v m ρ c)]
  rw [unscoped_split c (V2 m ρ c), V2_tables, arrays_shares, bigSep_W0]
  iintro ⟨⟨H0, H1⟩, Ht, Hr⟩
  ihave Hs := (halve c (V2 m ρ c main_v0)) $$ H0
  icases Hs with ⟨Ha, Hb⟩
  isplitl [Ha Hb H1]
  · isplitl [Ha]; · iexact Ha
    isplitl [Hb]; · iexact Hb
    iexact H1
  isplitl [Ht]; · iexact Ht
  iexact Hr

/-- After the region every buffer but the result's is as the gather left it; -/
theorem V3_of_ne (c : Dev nD) (b : Ref sig .tc) (hb : b ≠ main_v1) : V3 m ρ c (Proc.devRef .tc b) = V2 m ρ c b :=
  Function.update_of_ne (StableHlo.devRef_ne_of_ne hb) _ _
/-- the result's holds what the write-backs left. -/
theorem V3_v1 (c : Dev nD) : V3 m ρ c (Proc.devRef .tc main_v1) = (dats m ρ 0 c).arrAt 2 (cfgA (F := F)).N :=
  Function.update_self _ _ _

theorem V3_tables (c : Dev nD) : (fun k => V3 m ρ c (Proc.devRef .tc (pre0.ref k))) = tbl (F := F) := by
  funext k
  match k with
  | ⟨0, _⟩ => exact (V3_of_ne m ρ c main_c (by decide)).trans (congrFun (V2_tables m ρ c) 0)
  | ⟨1, _⟩ => exact (V3_of_ne m ρ c main_c_0 (by decide)).trans (congrFun (V2_tables m ρ c) 1)

theorem V3_rest (c : Dev nD) :
    (Pipeline.unscopedRestP pre0 spec0 c (fun b => V3 m ρ c (Proc.devRef .tc b)) : sProp 𝕄) = Pipeline.unscopedRestP pre0 spec0 c (V2 m ρ c) := by
  unfold Pipeline.unscopedRestP
  refine bigSep_congr fun b hb => ?_
  dsimp only
  rw [V3_of_ne m ρ c b (fun h => by subst h; exact absurd hb (by decide))]

/-- EXIT: the arrays at their final contents (the input array's two halves joined, the result's buffer at what the
    write-backs left), the tables and the rest are the unscoped buffers at the valuation after the region. -/
theorem exit_join (c : Dev nD) :
    iprop((dats m ρ 0 c).arrays ((dats m ρ 0 c).arrAt · (cfgA (F := F)).N) ∗ Pipeline.prefHeld pre0 c (fun _ => fullShare) (tbl (F := F))
          ∗ Pipeline.unscopedRestP pre0 spec0 c (V2 m ρ c))
      ⊢ (StableHlo.held (c : Thread nD τ) (ucRefs τ sig) (V3 m ρ c) : sProp 𝕄) := by
  rw [← Pipeline.unscopedBufs_held (Ix := Unit) (Name := ℕ) (U := UR sig nD τ) (Lvl := ℕ) c (V3 m ρ c)]
  rw [unscoped_split c (fun b => V3 m ρ c (Proc.devRef .tc b)), V3_tables, V3_rest, V3_v1, V3_of_ne m ρ c main_v0 (by decide), arrays_shares, bigSep_W0]
  dsimp only
  rw [(dats m ρ 0 c).arrAt_in 0 rfl, (dats m ρ 0 c).arrAt_in 1 rfl]
  iintro ⟨⟨Ha, Hb, H1⟩, Ht, Hr⟩
  ihave H0 := (rejoin c (V2 m ρ c main_v0)) $$ [Ha Hb]
  · isplitl [Ha]; · iexact Ha
    iexact Hb
  isplitl [H0 H1]
  · isplitl [H0]; · iexact H0
    iexact H1
  isplitl [Ht]; · iexact Ht
  iexact Hr

end Cert.Proof.KI

end
-- ==== Proof.Run.lean ====
/-
  The kernel program's run, as four segments of @main: the two table constants, the gather of the rows, the
  pipeline's region, and the final sum of the 36 × 8 × 128 result.

  Every weakly fair execution on the TensorCores terminates without a fault; at the end the two arguments hold what
  they held at launch and every buffer holds the value the host operations and the pipeline's write-backs compute.
  The region is entered from the buffers the host operations left: the gathered array is split in two halves, one
  per input window (both windows read it; neither writes it), the result's buffer goes to the output window, the
  two tables go to the pipeline's invariant, and everything else bypasses the region. At the exit the halves are
  joined again and the result's buffer holds the 36 blocks the points wrote.
-/
import proofs.«412813_j26139170964397_3_alg».proof.Proof.Oblig
import proofs.«412813_j26139170964397_3_alg».proof.Proof.Bufs

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

/-- The pipeline library's algebra is the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0

/-- What rides beside the buffers through every segment: the core's `owes`, at nothing owed. -/
abbrev R (c : Dev nD) : sProp 𝕄 := iprop(∃ W, owes (c : Thread nD τ) (0 : CellTallies nD τ sig Unit) W)

/-- The buffers at the end: the final sum has run. -/
abbrev V4 (c : Dev nD) : Valuation τ sig (Elt F) := StableHlo.after hostOps1 (V3 m ρ c)

/-! ## The host segments -/

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    fresh0 (V₀ m ρ) R

def seg1 : Pipeline.HostSeg (Name := ℕ) (U := UR sig nD τ) (pcfgs (F := F)) defs₀ 𝒱₀ L lv :=
  Pipeline.HostSeg.ofOps _ _ _ _ _ (ucRefs τ sig) hostOps0_1 (fun op h => Pipeline.sub_ucRefs op ((List.forall_iff_forall_mem.mp hostOps0_1_sub) op h))
    fresh0_1 (V1 m ρ) R

def seg2 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    fresh1 (V3 m ρ) R

/-! ## The region -/

set_option backward.isDefEq.respectTransparency.types false in
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (ucRefs τ sig) (V2v m ρ c) ∗ R c)
  post c := iprop(StableHlo.held (c : Thread nD τ) (ucRefs τ sig) (V3 m ρ c) ∗ R c)
  X c := iprop(emp)
  Y c := Pipeline.prefHeld pre0 c (fun _ => fullShare) (tbl (F := F))
  Z c := Pipeline.unscopedRestP pre0 spec0 c (V2 m ρ c)
  hentry c := by
    iintro ⟨⟨Hh, HO⟩, -, -⟩
    ihave H := (entry_split m ρ c) $$ Hh
    icases H with ⟨Ha, Ht, Hr⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ 0 c).Φ 0 = Φc c from rfl]; unfold Φc
    iintro ⟨-, Ht, Hr⟩
    isplitl [Ht]; · iexact Ht
    iexact Hr
  hout c := by
    rw [show (dats m ρ 0 c).Φ (Fin.last (cfgA (F := F)).N) = Φc c from rfl]; unfold Φc Pipeline.ownSems0
    rw [Finset.univ_eq_empty, BI.bigSep_empty]
    iintro ⟨Ht, Hr⟩
    isplitl [Ht]; · iexact Ht
    isplitr; · iempintro
    iexact Hr
  hexit c := by
    iintro ⟨Ha, HO, HY, HZ⟩
    imodintro
    isplitr [HO]
    · iapply (exit_join m ρ c)
      isplitl [Ha]; · iexact Ha
      isplitl [HY] <;> iassumption
    · unfold Pipeline.Dat.owesAt Pipeline.owesWithin
      icases HO with ⟨%W, -, HO⟩; iexists W; iexact HO

/-- @main as the list of the four. -/
abbrev segs : List (Pipeline.Seg (pcfgs (F := F)) adm (dats m ρ) () defs₀ 𝒱₀ L lv) :=
  [.host (seg0 m ρ), .host (seg1 m ρ), .region (reg0 m ρ), .host (seg2 m ρ)]

/-- The launch element: the pipeline library's at the staging cells. -/
def u₀ : UR sig nD τ :=
  initOf (Pipeline.cells (Pipeline.pin (pcfgs (F := F)) adm) (cellOf_inj adm)) (Pipeline.launchToks (Pipeline.pin (pcfgs (F := F)) adm) (cellOf_inj adm))

/-- The physical post: the result and the two arguments at their final values. -/
def QC : PUnit × MemSt nD τ sig (Elt F) → Prop := fun r =>
  ∀ c : Dev nD, r.2.mem ((c : Thread nD τ).loc main_v2) = V4 m ρ c (Proc.devRef .tc main_v2)
    ∧ r.2.mem ((c : Thread nD τ).loc main_arg0) = V4 m ρ c (Proc.devRef .tc main_arg0)
    ∧ r.2.mem ((c : Thread nD τ).loc main_arg1) = V4 m ρ c (Proc.devRef .tc main_arg1)

/-- The result and the two arguments, held one by one. -/
theorem held_three (c : Dev nD) (V : Valuation τ sig (Elt F)) :
    (StableHlo.held (c : Thread nD τ) ({Proc.devRef .tc main_v2, Proc.devRef .tc main_arg0, Proc.devRef .tc main_arg1} : Finset (DevRef τ sig)) V : sProp 𝕄)
      = iprop((((c : Thread nD τ).1, Proc.devRef .tc main_v2) ↦{fullShare} V (Proc.devRef .tc main_v2))
          ∗ (((c : Thread nD τ).1, Proc.devRef .tc main_arg0) ↦{fullShare} V (Proc.devRef .tc main_arg0))
          ∗ (((c : Thread nD τ).1, Proc.devRef .tc main_arg1) ↦{fullShare} V (Proc.devRef .tc main_arg1))) := by
  unfold StableHlo.held
  exact bigSep_eq_bigSepL_of_eq [Proc.devRef .tc main_v2, Proc.devRef .tc main_arg0, Proc.devRef .tc main_arg1] (by decide) (by decide) _

/-- The three buffers the claims speak of are among the TensorCore's unscoped buffers. -/
theorem three_sub : ({Proc.devRef .tc main_v2, Proc.devRef .tc main_arg0, Proc.devRef .tc main_arg1} : Finset (DevRef τ sig)) ⊆ ucRefs τ sig := by
  decide

set_option backward.isDefEq.respectTransparency.types false in
theorem run_main : θ_run defs (onTc (τ := τ) (main (F := F))) (s₀ m ρ) (QC m ρ) :=
  Pipeline.θ_run_regions_kit (pcfgs (F := F)) adm (dats m ρ) () (cellOf_inj adm) EP defs₀ 𝒱₀ L lv m ρ main (segs m ρ)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (V4 m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v2) = V4 m ρ c (Proc.devRef .tc main_v2)
      ∧ s.mem ((c : Thread nD τ).loc main_arg0) = V4 m ρ c (Proc.devRef .tc main_arg0)
      ∧ s.mem ((c : Thread nD τ).loc main_arg1) = V4 m ρ c (Proc.devRef .tc main_arg1))
    (hfin := fun c s' => by
      refine Entails.trans (sep_mono (BI.bigSep_subset three_sub) .rfl) ?_
      rw [show bigSep ({Proc.devRef .tc main_v2, Proc.devRef .tc main_arg0, Proc.devRef .tc main_arg1} : Finset (DevRef τ sig))
            (fun b => (((c : Thread nD τ).1, b) ↦{fullShare} V4 m ρ c b : sProp 𝕄))
          = StableHlo.held (c : Thread nD τ) _ (V4 m ρ c) from rfl, held_three]
      iintro ⟨⟨H2, H0, H1⟩, HSI⟩
      icombine HSI H2 gives %h2
      icombine HSI H0 gives %h0
      icombine HSI H1 gives %h1
      imodintro
      isplitr; · ipureintro; exact ⟨Buf.eq_of_forall_mem_univ h2, Buf.eq_of_forall_mem_univ h0, Buf.eq_of_forall_mem_univ h1⟩
      iexact HSI)
    (hQ := fun _ h => h)

/-! ## The arguments end as they began -/

/-- No operation of @main writes an argument: the table constants, -/
theorem V1_arg0 (c : Dev nD) : V1 m ρ c (Proc.devRef .tc main_arg0) = m ((c : Thread nD τ).loc main_arg0) := by
  show StableHlo.after hostOps0 (V₀ m ρ c) (Proc.devRef .tc main_arg0) = _
  after_results
theorem V1_arg1 (c : Dev nD) : V1 m ρ c (Proc.devRef .tc main_arg1) = m ((c : Thread nD τ).loc main_arg1) := by
  show StableHlo.after hostOps0 (V₀ m ρ c) (Proc.devRef .tc main_arg1) = _
  after_results

/-- the gather, the region (which writes the result's buffer only) and the final sum neither. -/
theorem V4_arg0 (c : Dev nD) : V4 m ρ c (Proc.devRef .tc main_arg0) = m ((c : Thread nD τ).loc main_arg0) := by
  have e : V4 m ρ c (Proc.devRef .tc main_arg0) = V3 m ρ c (Proc.devRef .tc main_arg0) := by
    show StableHlo.after hostOps1 (V3 m ρ c) (Proc.devRef .tc main_arg0) = _
    after_results
  rw [e, V3_of_ne m ρ c main_arg0 (by decide)]
  exact (gather_keeps (V1 m ρ c) main_arg0 (.inl rfl)).trans (V1_arg0 m ρ c)
theorem V4_arg1 (c : Dev nD) : V4 m ρ c (Proc.devRef .tc main_arg1) = m ((c : Thread nD τ).loc main_arg1) := by
  have e : V4 m ρ c (Proc.devRef .tc main_arg1) = V3 m ρ c (Proc.devRef .tc main_arg1) := by
    show StableHlo.after hostOps1 (V3 m ρ c) (Proc.devRef .tc main_arg1) = _
    after_results
  rw [e, V3_of_ne m ρ c main_arg1 (by decide)]
  exact (gather_keeps (V1 m ρ c) main_arg1 (.inr (.inl rfl))).trans (V1_arg1 m ρ c)

/-- The result is the sum, from zero, of everything the region left in its output array. -/
theorem V4_result (c : Dev nD) :
    V4 m ρ c (Proc.devRef .tc main_v2)
      = Host.reduceAdd (F := F) ((dats m ρ 0 c).arrAt 2 (cfgA (F := F)).N) (constant (F := F) S_ .f32 0x00000000#32) reducesTo_S36x8x128_S_d0_1_2 h_S_ := by
  show StableHlo.after hostOps1 (V3 m ρ c) (Proc.devRef .tc main_v2) = _
  after_results
  rw [V3_v1]
  rfl

/-- THE FRAME: every weakly fair execution terminates, nothing faults, and both arguments end unchanged. -/
theorem frame_main :
    θ_run defs (onTc (τ := τ) (main (F := F))) (s₀ m ρ) (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).2.1.trans (V4_arg0 m ρ c), (h c).2.2.trans (V4_arg1 m ρ c)⟩) (run_main m ρ)

end Cert.Proof.KI

end
-- ==== Proof.Spec.lean ====
/-
  The pairwise clamped-difference loss as plain sums over the extended reals.

  For an array `r` of 512 rows and 768 columns: `pair r i j = Σₙ max(r i n − r j n, 0)²`, the term of an ordered
  pair of rows is `√(pair r i j)` when `i < j` and `0` otherwise, and the loss is the sum of all 512 × 512 terms.
  The same loss is laid out by 64 × 64 tiles of row pairs: a tile `(a, b)` sums the terms of rows `64a + p`,
  `64b + q`; tiles with `a > b` hold only pairs with `i > j` and vanish, and the 36 tiles with `a ≤ b` are listed
  by `tileI`, `tileJ`. Addition on the extended reals is commutative and associative with unit `0`, so every
  regrouping below holds for ALL entries, infinite ones included: no finiteness is used.
-/
import Idealize.ShloMosaic.PureOps.Ideal

noncomputable section

namespace Cert.Proof.Spec

open Idealize.ShloMosaic

/-- The square of the difference clamped below at zero. -/
def sqd (u v : EReal) : EReal := max (u - v) 0 * max (u - v) 0

/-- Row `i` against row `j`: the clamped squared differences summed over the 768 columns. -/
def pair (r : Fin 512 → Fin 768 → EReal) (i j : Fin 512) : EReal := ∑ n : Fin 768, sqd (r i n) (r j n)

/-- An ordered pair's contribution: the square root of its sum when strictly above the diagonal, else zero. -/
def term (r : Fin 512 → Fin 768 → EReal) (i j : Fin 512) : EReal := if i < j then Ideal.sqrt (pair r i j) else 0

/-- The loss: all ordered pairs. -/
def loss (r : Fin 512 → Fin 768 → EReal) : EReal := ∑ i : Fin 512, ∑ j : Fin 512, term r i j

/-- Row `p` of row-block `a`. -/
def row (a : Fin 8) (p : Fin 64) : Fin 512 := ⟨64 * a.val + p.val, by have := a.isLt; have := p.isLt; omega⟩

/-- The terms of one 64 × 64 tile of row pairs. -/
def tile (r : Fin 512 → Fin 768 → EReal) (a b : Fin 8) : EReal := ∑ p : Fin 64, ∑ q : Fin 64, term r (row a p) (row b q)

/-- The row-block of each of the 36 tiles on or above the diagonal, in row-major order of `(a, b)`, `a ≤ b`. -/
def tileI : Fin 36 → Fin 8 := ![0, 0, 0, 0, 0, 0, 0, 0, 1, 1, 1, 1, 1, 1, 1, 2, 2, 2, 2, 2, 2, 3, 3, 3, 3, 3, 4, 4, 4, 4, 5, 5, 5, 6, 6, 7]
/-- and its column-block. -/
def tileJ : Fin 36 → Fin 8 := ![0, 1, 2, 3, 4, 5, 6, 7, 1, 2, 3, 4, 5, 6, 7, 2, 3, 4, 5, 6, 7, 3, 4, 5, 6, 7, 4, 5, 6, 7, 5, 6, 7, 6, 7, 7]

/-- A sum over the 512 rows regrouped as 8 blocks of 64 rows, `i = 64 a + p`: the map `(a, p) ↦ 64 a + p` is the
    standard bijection of `Fin 8 × Fin 64` with `Fin 512`. -/
private theorem sum_rows (F : Fin 512 → EReal) : ∑ i : Fin 512, F i = ∑ a : Fin 8, ∑ p : Fin 64, F (row a p) := by
  rw [← Fintype.sum_prod_type' (f := fun a p => F (row a p))]
  symm
  refine Fintype.sum_equiv (finProdFinEquiv (m := 8) (n := 64)) _ _ ?_
  rintro ⟨a, p⟩
  congr 1
  apply Fin.ext
  simp [row, finProdFinEquiv]
  omega

/-- The list `t ↦ (tileI t, tileJ t)` names no block pair twice. -/
private theorem tile_inj : Function.Injective fun t : Fin 36 => (tileI t, tileJ t) := by decide

/-- A block pair the list does not name lies strictly below the diagonal. -/
private theorem tile_cover :
    ∀ x : Fin 8 × Fin 8, x ∉ Finset.univ.image (fun t : Fin 36 => (tileI t, tileJ t)) → x.2 < x.1 := by decide

/-- A sum over all 8 × 8 block pairs whose entries strictly below the diagonal vanish is the sum over the 36 listed
    pairs: the list is injective, and everything outside its image is below the diagonal. -/
private theorem sum_upper (G : Fin 8 → Fin 8 → EReal) (hG : ∀ a b, b < a → G a b = 0) :
    ∑ a, ∑ b, G a b = ∑ t : Fin 36, G (tileI t) (tileJ t) := by
  rw [← Fintype.sum_prod_type']
  have h := Finset.sum_image (s := Finset.univ) (g := fun t : Fin 36 => (tileI t, tileJ t))
    (f := fun x : Fin 8 × Fin 8 => G x.1 x.2) (fun a _ b _ h => tile_inj h)
  rw [← h]
  symm
  refine Finset.sum_subset (Finset.subset_univ _) ?_
  intro x _ hx
  exact hG _ _ (tile_cover x hx)

/-- A tile strictly below the diagonal is zero: `b < a` gives `64 b + q < 64 a ≤ 64 a + p`, so no pair of its rows
    has `i < j`. -/
private theorem tile_zero (r : Fin 512 → Fin 768 → EReal) (a b : Fin 8) (h : b < a) : tile r a b = 0 := by
  unfold tile
  refine Finset.sum_eq_zero fun p _ => Finset.sum_eq_zero fun q _ => ?_
  unfold term
  rw [if_neg]
  rw [Fin.lt_def]
  have := p.isLt; have := q.isLt; have : b.val < a.val := h
  simp only [row]
  omega

/-- The loss is the sum of the 36 tiles on or above the diagonal. -/
theorem loss_eq_tiles (r : Fin 512 → Fin 768 → EReal) : loss r = ∑ t : Fin 36, tile r (tileI t) (tileJ t) := by
  rw [← sum_upper (fun a b => tile r a b) (tile_zero r)]
  unfold loss tile
  rw [sum_rows]
  refine Finset.sum_congr rfl fun a _ => ?_
  calc ∑ p : Fin 64, ∑ j : Fin 512, term r (row a p) j
      = ∑ p : Fin 64, ∑ b : Fin 8, ∑ q : Fin 64, term r (row a p) (row b q) :=
        Finset.sum_congr rfl fun p _ => sum_rows _
    _ = ∑ b : Fin 8, ∑ p : Fin 64, ∑ q : Fin 64, term r (row a p) (row b q) := Finset.sum_comm

/-- A tile from its two 64-row blocks alone. -/
def pairXY (x y : Fin 64 → Fin 768 → EReal) (p q : Fin 64) : EReal := ∑ n : Fin 768, sqd (x p n) (y q n)

def tileXY (x y : Fin 64 → Fin 768 → EReal) (a b : Fin 8) : EReal :=
  ∑ p : Fin 64, ∑ q : Fin 64, if 64 * a.val + p.val < 64 * b.val + q.val then Ideal.sqrt (pairXY x y p q) else 0

theorem tile_eq_tileXY (r : Fin 512 → Fin 768 → EReal) (a b : Fin 8) :
    tile r a b = tileXY (fun p n => r (row a p) n) (fun q n => r (row b q) n) a b := by
  -- the order of `Fin 512` is the order of the values `64 a + p`, `64 b + q`; both sides unfold to the same sums
  rfl

/-- The 768 columns as three chunks of 256 lanes, accumulated lane by lane from zero and summed over the lanes last:
    the order in which a tile's kernel forms the sum. -/
def lanes (x y : Fin 64 → Fin 768 → EReal) (p q : Fin 64) (l : Fin 256) : EReal :=
  ((0 + sqd (x p ⟨l.val, by omega⟩) (y q ⟨l.val, by omega⟩))
      + sqd (x p ⟨256 + l.val, by omega⟩) (y q ⟨256 + l.val, by omega⟩))
    + sqd (x p ⟨512 + l.val, by omega⟩) (y q ⟨512 + l.val, by omega⟩)

/-- A sum over 768 columns as a sum over 256 lanes of the three columns `l`, `256 + l`, `512 + l`:
    `768 = 512 + 256` and `512 = 256 + 256` split the sum in three, which are then added lane by lane. -/
private theorem sum_three (f : Fin 768 → EReal) :
    ∑ n : Fin 768, f n
      = ∑ l : Fin 256, (((0 + f ⟨l.val, by omega⟩) + f ⟨256 + l.val, by omega⟩) + f ⟨512 + l.val, by omega⟩) := by
  have h1 := Fin.sum_univ_add (a := 512) (b := 256) f
  have h2 := Fin.sum_univ_add (a := 256) (b := 256) (fun i : Fin 512 => f (Fin.castAdd 256 i))
  rw [h1, h2, ← Finset.sum_add_distrib, ← Finset.sum_add_distrib]
  refine Finset.sum_congr rfl fun l _ => ?_
  rw [zero_add]
  rfl

theorem pairXY_eq_lanes (x y : Fin 64 → Fin 768 → EReal) (p q : Fin 64) :
    pairXY x y p q = ∑ l : Fin 256, lanes x y p q l := by
  unfold pairXY lanes
  exact sum_three fun n => sqd (x p n) (y q n)

/-- Each tile's value stored at lane 0 of sublane 0 of its own 8 × 128 block and zero elsewhere: summing all
    36 × 8 × 128 entries gives back the sum of the tiles. -/
theorem sum_padded (g : Fin 36 → EReal) :
    (∑ t : Fin 36, ∑ s : Fin 8, ∑ l : Fin 128, if s.val = 0 ∧ l.val = 0 then g t else 0) = ∑ t : Fin 36, g t := by
  refine Finset.sum_congr rfl fun t _ => ?_
  rw [Finset.sum_eq_single (0 : Fin 8), Finset.sum_eq_single (0 : Fin 128)]
  · simp
  · intro l _ hl
    have : l.val ≠ 0 := fun h => hl (Fin.ext h)
    simp [this]
  · simp
  · intro s _ hs
    have : s.val ≠ 0 := fun h => hs (Fin.ext h)
    simp [this]
  · simp

end Cert.Proof.Spec

end
-- ==== Proof.Payload.lean ====
/-
  One tile's stored block as a function of the two 64 × 768 blocks it reads.

  The three 256-column chunks of row `p` of the first block and row `q` of the second give, lane by lane, the clamped
  squared differences accumulated from zero; their sum over the 256 lanes is the pair's sum over all 768 columns. The
  pair counts when row `64 a + p` is strictly before row `64 b + q` — compared as signed 32-bit words, which for values
  below 512 is the comparison of naturals —, its square root is taken, and the 64 × 64 masked roots are summed to one
  number, stored at lane 0 of sublane 0 of a 1 × 8 × 128 block that is zero elsewhere.
-/
import proofs.«412813_j26139170964397_3_alg».proof.Proof.Gen.KernelIdeal.Skeleton
import proofs.«412813_j26139170964397_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Proof.Payload

open Idealize.ShloMosaic Idealize.ShloMosaic.ValueIdx Cert.KernelIdeal Cert.KernelIdeal.Gen
open Cert.Proof

/-- A block's row `p`, placed on a new middle unit axis and repeated over the 64 values of that axis, read at
    `(p, q, l)`: the block at `(p, l)`. -/
theorem rowB_apply (x : Vec Ideal S64x256 .f32) (p q : Fin 64) (l : Fin 256) :
    broadcastTo S64x64x256
        (shapeCast S64x1x256 (shapeCast S64x256 x shapeCasts_S64x256_S64x256) shapeCasts_S64x256_S64x1x256)
        broadcasts_S64x1x256_S64x64x256 (ix3 p q l)
      = x (ix2 p l) := by
  rw [shapeCast_self]
  refine (broadcastTo_apply _ _ (ix3 p q l) (ix3 p (0 : Fin 1) l) fun a => ?_).trans ?_
  · match a with
    | ⟨0, _⟩ => rfl
    | ⟨1, _⟩ => rfl
    | ⟨2, _⟩ => rfl
  · refine shapeCast_apply _ _ _ _ ?_
    rw [Shape.rowMajor_val_three, Shape.rowMajor_val_two]
    show p.val * 256 + l.val = (p.val * 1 + 0) * 256 + l.val
    omega

/-- A block's row `q`, placed on a new leading unit axis and repeated over the 64 values of that axis, read at
    `(p, q, l)`: the block at `(q, l)`. -/
theorem colB_apply (y : Vec Ideal S64x256 .f32) (p q : Fin 64) (l : Fin 256) :
    broadcastTo S64x64x256
        (shapeCast S1x64x256 (shapeCast S64x256 y shapeCasts_S64x256_S64x256) shapeCasts_S64x256_S1x64x256)
        broadcasts_S1x64x256_S64x64x256 (ix3 p q l)
      = y (ix2 q l) := by
  rw [shapeCast_self]
  refine (broadcastTo_apply _ _ (ix3 p q l) (ix3 (0 : Fin 1) q l) fun a => ?_).trans ?_
  · match a with
    | ⟨0, _⟩ => rfl
    | ⟨1, _⟩ => rfl
    | ⟨2, _⟩ => rfl
  · refine shapeCast_apply _ _ _ _ ?_
    rw [Shape.rowMajor_val_three, Shape.rowMajor_val_two]
    show q.val * 256 + l.val = (0 * 64 + q.val) * 256 + l.val
    omega

/-- The third chunk's term at `(p, q, l)`: the clamped squared difference of the two blocks' entries. -/
theorem pay3_apply (x y : Vec Ideal S64x256 .f32) (p q : Fin 64) (l : Fin 256) :
    k0_pay3 (F := Ideal) x y (ix3 p q l) = Spec.sqd (x (ix2 p l)) (y (ix2 q l)) := by
  have hx := rowB_apply x p q l
  have hy := colB_apply y p q l
  unfold k0_pay3
  simp only [mulf_apply, maximumf_apply, subf_apply, broadcast_apply, Ideal.ofBits_def, Ideal.ofBits_zero_f32]
  rw [hx, hy]
  rfl

/-- The first two chunks' running sum at `(p, q, l)`, accumulated from zero. -/
theorem pay2_apply (x0 y0 x1 y1 : Vec Ideal S64x256 .f32) (p q : Fin 64) (l : Fin 256) :
    k0_pay2 (F := Ideal) x0 y0 x1 y1 (ix3 p q l)
      = (0 + Spec.sqd (x0 (ix2 p l)) (y0 (ix2 q l))) + Spec.sqd (x1 (ix2 p l)) (y1 (ix2 q l)) := by
  have hx0 := rowB_apply x0 p q l
  have hy0 := colB_apply y0 p q l
  have hx1 := rowB_apply x1 p q l
  have hy1 := colB_apply y1 p q l
  unfold k0_pay2
  simp only [addf_apply, mulf_apply, maximumf_apply, subf_apply, broadcast_apply, Ideal.ofBits_def, Ideal.ofBits_zero_f32]
  rw [hx0, hy0, hx1, hy1]
  rfl

/-- The carry after the three chunks at `(p, q, l)`: the three clamped squared differences of lane `l`, accumulated
    from zero in the chunks' order. -/
theorem carry_apply (X Y : Fin 64 → Fin 768 → EReal) (x0 x1 x2 y0 y1 y2 : Vec Ideal S64x256 .f32)
    (hx0 : ∀ (p : Fin 64) (l : Fin 256), x0 (ix2 p l) = X p ⟨l.val, by omega⟩)
    (hx1 : ∀ (p : Fin 64) (l : Fin 256), x1 (ix2 p l) = X p ⟨256 + l.val, by omega⟩)
    (hx2 : ∀ (p : Fin 64) (l : Fin 256), x2 (ix2 p l) = X p ⟨512 + l.val, by omega⟩)
    (hy0 : ∀ (q : Fin 64) (l : Fin 256), y0 (ix2 q l) = Y q ⟨l.val, by omega⟩)
    (hy1 : ∀ (q : Fin 64) (l : Fin 256), y1 (ix2 q l) = Y q ⟨256 + l.val, by omega⟩)
    (hy2 : ∀ (q : Fin 64) (l : Fin 256), y2 (ix2 q l) = Y q ⟨512 + l.val, by omega⟩)
    (p q : Fin 64) (l : Fin 256) :
    addf (k0_pay2 (F := Ideal) x0 y0 x1 y1) (k0_pay3 (F := Ideal) x2 y2) (ix3 p q l) = Spec.lanes X Y p q l := by
  rw [addf_apply, pay2_apply, pay3_apply, hx0, hy0, hx1, hy1, hx2, hy2]
  rfl

/-- The sum over the lane axis of a 64 × 64 × 256 array, read at `(p, q)`. -/
theorem laneSum_apply (v : FVec Ideal S64x64x256 .f32) (p q : Fin 64) :
    multiReduction (F := Ideal) .add [2] S64x64 v 0x00000000#32 reduces_S64x64x256_S64x64 (.inl rfl) rfl (ix2 p q)
      = ∑ l : Fin 256, v (ix3 p q l) := by
  refine (Ideal.multiReduction_add_single v _ _ _ _ (ix2 p q)).trans ?_
  refine Finset.sum_congr rfl fun l _ => congrArg v ?_
  funext c
  match c with
  | ⟨0, _⟩ => rfl
  | ⟨1, _⟩ => rfl
  | ⟨2, _⟩ => rfl

/-- The sum over the second axis of a 64 × 64 array, read at `p`. -/
theorem colSum_apply (v : FVec Ideal S64x64 .f32) (p : Fin 64) :
    multiReduction (F := Ideal) .add [1] S64 v 0x00000000#32 reduces_S64x64_S64 (.inl rfl) rfl (ix1 p)
      = ∑ q : Fin 64, v (ix2 p q) := by
  refine (Ideal.multiReduction_add_single v _ _ _ _ (ix1 p)).trans ?_
  refine Finset.sum_congr rfl fun l _ => congrArg v ?_
  funext c
  match c with
  | ⟨0, _⟩ => rfl
  | ⟨1, _⟩ => rfl

/-- The sum over the first axis of a 64 × 1 array, read at its one column. -/
theorem rowSum_apply (v : FVec Ideal S64x1 .f32) (u : Fin 1) :
    multiReduction (F := Ideal) .add [0] S1 v 0x00000000#32 reduces_S64x1_S1 (.inl rfl) rfl (ix1 u)
      = ∑ p : Fin 64, v (ix2 p u) := by
  refine (Ideal.multiReduction_add_single v _ _ _ _ (ix1 u)).trans ?_
  refine Finset.sum_congr rfl fun l _ => congrArg v ?_
  funext c
  match c with
  | ⟨0, _⟩ => rfl
  | ⟨1, _⟩ => rfl

/-- A vector of 64 entries written as one column reads, at `(p, u)`, entry `p`. -/
theorem asColumn_apply (v : FVec Ideal S64 .f32) (p : Fin 64) (u : Fin 1) :
    shapeCast S64x1 v shapeCasts_S64_S64x1 (ix2 p u) = v (ix1 p) := by
  refine shapeCast_apply _ _ _ _ ?_
  rw [Shape.rowMajor_val_two, Shape.rowMajor_val_one]
  show p.val = p.val * 1 + u.val
  omega

/-- The word of `64 a + p` computed in 32-bit arithmetic from the words of `a` and `p`. -/
theorem word_row (a p : Nat) :
    IntOp.addi (Scalar.muli (BitVec.ofNat 32 a) 64#32) (BitVec.ofNat 32 p) = BitVec.ofNat 32 (64 * a + p) := by
  show BitVec.ofNat 32 a * 64#32 + BitVec.ofNat 32 p = BitVec.ofNat 32 (64 * a + p)
  apply BitVec.eq_of_toNat_eq
  simp only [BitVec.toNat_add, BitVec.toNat_mul, BitVec.toNat_ofNat]
  omega

/-- Two naturals below `2 ^ 31` compare as signed 32-bit words the way they compare as naturals. -/
theorem slt_ofNat (m n : Nat) (hm : m < 2 ^ 31) (hn : n < 2 ^ 31) :
    (BitVec.ofNat 32 m).slt (BitVec.ofNat 32 n) = decide (m < n) := by
  have tm : (BitVec.ofNat 32 m).toNat = m := by rw [BitVec.toNat_ofNat]; omega
  have tn : (BitVec.ofNat 32 n).toNat = n := by rw [BitVec.toNat_ofNat]; omega
  have im : (BitVec.ofNat 32 m).toInt = (m : Int) := by
    rw [BitVec.toInt_eq_toNat_of_lt (by rw [tm]; omega), tm]
  have i_n : (BitVec.ofNat 32 n).toInt = (n : Int) := by
    rw [BitVec.toInt_eq_toNat_of_lt (by rw [tn]; omega), tn]
  rw [BitVec.slt, im, i_n]
  by_cases h : m < n
  · simp [h]
  · simp [h]

/-- The mask at `(p, q)`: row `64 a + p` is strictly before row `64 b + q`. -/
theorem mask_apply (a b : Fin 8) (p q : Fin 64) :
    cmpi .slt
        (addi (broadcast S64x64 (Scalar.muli (BitVec.ofNat 32 a.val) 64#32)) (iota .tc S64x64 32 [0] iota_S64x64_d0_w32))
        (addi (broadcast S64x64 (Scalar.muli (BitVec.ofNat 32 b.val) 64#32)) (iota .tc S64x64 32 [1] iota_S64x64_d1_w32))
        (ix2 p q)
      = if 64 * a.val + p.val < 64 * b.val + q.val then 1#1 else 0#1 := by
  show IntOp.cmpi .slt
      (IntOp.addi (Scalar.muli (BitVec.ofNat 32 a.val) 64#32) (iota .tc S64x64 32 [0] iota_S64x64_d0_w32 (ix2 p q)))
      (IntOp.addi (Scalar.muli (BitVec.ofNat 32 b.val) 64#32) (iota .tc S64x64 32 [1] iota_S64x64_d1_w32 (ix2 p q))) = _
  rw [iota_single_apply, iota_single_apply]
  show IntOp.cmpi .slt
      (IntOp.addi (Scalar.muli (BitVec.ofNat 32 a.val) 64#32) (BitVec.ofNat 32 p.val))
      (IntOp.addi (Scalar.muli (BitVec.ofNat 32 b.val) 64#32) (BitVec.ofNat 32 q.val)) = _
  rw [word_row, word_row]
  show BitVec.ofBool ((BitVec.ofNat 32 (64 * a.val + p.val)).slt (BitVec.ofNat 32 (64 * b.val + q.val))) = _
  have ha := a.isLt; have hb := b.isLt; have hp := p.isLt; have hq := q.isLt
  rw [slt_ofNat _ _ (by omega) (by omega)]
  by_cases h : 64 * a.val + p.val < 64 * b.val + q.val
  · rw [if_pos h]; simp [h]
  · rw [if_neg h]; simp [h]

/-- A coordinate below `2 ^ 32` equals zero as a 32-bit word exactly when it is zero. -/
theorem cmpi_eq_zero (n : Nat) (hn : n < 2 ^ 32) :
    IntOp.cmpi .eq (BitVec.ofNat 32 n) 0#32 = if n = 0 then 1#1 else 0#1 := by
  by_cases h : n = 0
  · subst h; rfl
  · rw [if_neg h]
    have hne : BitVec.ofNat 32 n ≠ 0#32 := by
      intro he
      have := congrArg BitVec.toNat he
      rw [BitVec.toNat_ofNat] at this
      simp at this
      omega
    show BitVec.ofBool (BitVec.ofNat 32 n == 0#32) = 0#1
    rw [beq_eq_false_iff_ne.mpr hne]
    rfl

/-- The placement mask at `(u, s, l)`: lane `l` and sublane `s` are both zero. -/
theorem place_apply (u : Fin 1) (s : Fin 8) (l : Fin 128) :
    andi (cmpi .eq (iota .tc S1x8x128 32 [2] iota_S1x8x128_d2_w32) (broadcast S1x8x128 0#32))
         (cmpi .eq (iota .tc S1x8x128 32 [1] iota_S1x8x128_d1_w32) (broadcast S1x8x128 0#32)) (ix3 u s l)
      = if s.val = 0 ∧ l.val = 0 then 1#1 else 0#1 := by
  show IntOp.andi (IntOp.cmpi .eq (iota .tc S1x8x128 32 [2] iota_S1x8x128_d2_w32 (ix3 u s l)) 0#32)
      (IntOp.cmpi .eq (iota .tc S1x8x128 32 [1] iota_S1x8x128_d1_w32 (ix3 u s l)) 0#32) = _
  rw [iota_single_apply, iota_single_apply]
  show IntOp.andi (IntOp.cmpi .eq (BitVec.ofNat 32 l.val) 0#32) (IntOp.cmpi .eq (BitVec.ofNat 32 s.val) 0#32) = _
  have hs := s.isLt; have hl := l.isLt
  rw [cmpi_eq_zero _ (by omega), cmpi_eq_zero _ (by omega)]
  by_cases h1 : l.val = 0 <;> by_cases h2 : s.val = 0 <;> simp [h1, h2, IntOp.andi]

/-- The masked square root, masked again to zero, at `(p, q)`, for a mask whose bit there decides `P`. -/
theorem rooted_apply (m : IVec S64x64 1) (v : FVec Ideal S64x64 .f32) (P : Prop) [Decidable P] (p q : Fin 64)
    (hm : m (ix2 p q) = if P then 1#1 else 0#1) :
    select m (sqrt (select m v (broadcast S64x64 (Scalar.ofBits (F := Ideal) .f32 0x3F800000#32))))
        (broadcast S64x64 (Scalar.ofBits (F := Ideal) .f32 0x00000000#32)) (ix2 p q)
      = if P then Ideal.sqrt (v (ix2 p q)) else 0 := by
  show Scalar.select (m (ix2 p q))
      (FloatOps.sqrt (Scalar.select (m (ix2 p q)) (v (ix2 p q)) (Scalar.ofBits (F := Ideal) .f32 0x3F800000#32)))
      (Scalar.ofBits (F := Ideal) .f32 0x00000000#32) = _
  rw [hm]
  by_cases h : P
  · rw [if_pos h, if_pos h, select_one, select_one]
    rfl
  · rw [if_neg h, if_neg h, select_zero]
    exact Ideal.ofBits_zero_f32

/-- A one-entry vector, recast to 1 × 1 × 1 and spread over a 1 × 8 × 128 block, reads its entry everywhere. -/
theorem spread_apply (v : FVec Ideal S1 .f32) (u : Fin 1) (s : Fin 8) (l : Fin 128) :
    broadcastTo S1x8x128
        (shapeCast S1x1x1 (shapeCast S1x1x1 (shapeCast S1x1 v shapeCasts_S1_S1x1) shapeCasts_S1x1_S1x1x1)
          shapeCasts_S1x1x1_S1x1x1)
        broadcasts_S1x1x1_S1x8x128 (ix3 u s l)
      = v (ix1 (0 : Fin 1)) := by
  rw [shapeCast_self]
  refine (broadcastTo_apply _ _ (ix3 u s l) (ix3 (0 : Fin 1) (0 : Fin 1) (0 : Fin 1)) fun a => ?_).trans ?_
  · match a with
    | ⟨0, _⟩ => rfl
    | ⟨1, _⟩ => rfl
    | ⟨2, _⟩ => rfl
  · refine (shapeCast_apply _ _ _ (ix2 (0 : Fin 1) (0 : Fin 1)) ?_).trans ?_
    · rw [Shape.rowMajor_val_three, Shape.rowMajor_val_two]
      rfl
    · refine shapeCast_apply _ _ _ _ ?_
      rw [Shape.rowMajor_val_two, Shape.rowMajor_val_one]
      rfl

/-- The stored block at `(u, s, l)`, for any two carries whose lane sums at each `(p, q)` are `G p q`: the masked
    square roots summed over the tile at lane 0 of sublane 0, zero elsewhere. -/
theorem pay1_apply (a b : Fin 8) (v30 v42 : FVec Ideal S64x64x256 .f32) (G : Fin 64 → Fin 64 → EReal)
    (hG : ∀ p q : Fin 64, ∑ l : Fin 256, addf v30 v42 (ix3 p q l) = G p q)
    (u : Fin 1) (s : Fin 8) (l : Fin 128) :
    k0_pay1 (F := Ideal) (BitVec.ofNat 32 a.val) (BitVec.ofNat 32 b.val) v30 v42 (ix3 u s l)
      = if s.val = 0 ∧ l.val = 0 then
          ∑ p : Fin 64, ∑ q : Fin 64, if 64 * a.val + p.val < 64 * b.val + q.val then Ideal.sqrt (G p q) else 0
        else 0 := by
  unfold k0_pay1
  refine (select_apply _ _ _ _).trans ?_
  rw [place_apply u s l, spread_apply _ u s l, rowSum_apply]
  by_cases h : s.val = 0 ∧ l.val = 0
  · rw [if_pos h, if_pos h, select_one]
    refine Finset.sum_congr rfl fun p _ => ?_
    rw [asColumn_apply, colSum_apply]
    refine Finset.sum_congr rfl fun q _ => ?_
    rw [rooted_apply _ _ _ p q (mask_apply a b p q), laneSum_apply, hG]
  · rw [if_neg h, if_neg h, select_zero]
    exact Ideal.ofBits_zero_f32

/-- The stored block at `(u, s, l)`: the tile's value at lane 0 of sublane 0, zero elsewhere. -/
theorem payload_ix3 (a b : Fin 8) (X Y : Fin 64 → Fin 768 → EReal)
    (x0 x1 x2 y0 y1 y2 : Vec Ideal S64x256 .f32)
    (hx0 : ∀ (p : Fin 64) (l : Fin 256), x0 (ix2 p l) = X p ⟨l.val, by omega⟩)
    (hx1 : ∀ (p : Fin 64) (l : Fin 256), x1 (ix2 p l) = X p ⟨256 + l.val, by omega⟩)
    (hx2 : ∀ (p : Fin 64) (l : Fin 256), x2 (ix2 p l) = X p ⟨512 + l.val, by omega⟩)
    (hy0 : ∀ (q : Fin 64) (l : Fin 256), y0 (ix2 q l) = Y q ⟨l.val, by omega⟩)
    (hy1 : ∀ (q : Fin 64) (l : Fin 256), y1 (ix2 q l) = Y q ⟨256 + l.val, by omega⟩)
    (hy2 : ∀ (q : Fin 64) (l : Fin 256), y2 (ix2 q l) = Y q ⟨512 + l.val, by omega⟩)
    (u : Fin 1) (s : Fin 8) (l : Fin 128) :
    k0_pay1 (F := Ideal) (BitVec.ofNat 32 a.val) (BitVec.ofNat 32 b.val) (k0_pay2 (F := Ideal) x0 y0 x1 y1)
        (k0_pay3 (F := Ideal) x2 y2) (ix3 u s l)
      = if s.val = 0 ∧ l.val = 0 then Spec.tileXY X Y a b else 0 := by
  refine (pay1_apply a b _ _ (fun p q => Spec.pairXY X Y p q) (fun p q => ?_) u s l).trans ?_
  · rw [Spec.pairXY_eq_lanes]
    exact Finset.sum_congr rfl fun l _ => carry_apply X Y x0 x1 x2 y0 y1 y2 hx0 hx1 hx2 hy0 hy1 hy2 p q l
  · rfl

/-- The stored block as a function of its index: the tile's value where the sublane and lane coordinates are both
    zero, and zero elsewhere. -/
theorem payload_eq (a b : Fin 8) (X Y : Fin 64 → Fin 768 → EReal)
    (x0 x1 x2 y0 y1 y2 : Vec Ideal S64x256 .f32)
    (hx0 : ∀ (p : Fin 64) (l : Fin 256), x0 (ix2 p l) = X p ⟨l.val, by omega⟩)
    (hx1 : ∀ (p : Fin 64) (l : Fin 256), x1 (ix2 p l) = X p ⟨256 + l.val, by omega⟩)
    (hx2 : ∀ (p : Fin 64) (l : Fin 256), x2 (ix2 p l) = X p ⟨512 + l.val, by omega⟩)
    (hy0 : ∀ (q : Fin 64) (l : Fin 256), y0 (ix2 q l) = Y q ⟨l.val, by omega⟩)
    (hy1 : ∀ (q : Fin 64) (l : Fin 256), y1 (ix2 q l) = Y q ⟨256 + l.val, by omega⟩)
    (hy2 : ∀ (q : Fin 64) (l : Fin 256), y2 (ix2 q l) = Y q ⟨512 + l.val, by omega⟩) :
    k0_pay1 (F := Ideal) (BitVec.ofNat 32 a.val) (BitVec.ofNat 32 b.val) (k0_pay2 (F := Ideal) x0 y0 x1 y1)
        (k0_pay3 (F := Ideal) x2 y2)
      = fun j => if (j 1).val = 0 ∧ (j 2).val = 0 then Spec.tileXY X Y a b else 0 := by
  funext j
  obtain ⟨u, s, l, rfl⟩ : ∃ (u : Fin 1) (s : Fin 8) (l : Fin 128), j = ix3 u s l := ⟨j 0, j 1, j 2, eq_ix3 j⟩
  exact payload_ix3 a b X Y x0 x1 x2 y0 y1 y2 hx0 hx1 hx2 hy0 hy1 hy2 u s l

end Cert.Proof.Payload

end
-- ==== Proof.RefValue.lean ====
/-
  The reference program read as one function of its two arguments, index by index, at the extended reals:
  rows gathered at the wrapped indices, pairwise clamped differences squared and summed over the feature axis,
  the strictly-upper-triangular entries' square roots summed.
-/
import proofs.«412813_j26139170964397_3_alg».proof.Proof.Gen.ReferenceIdeal.Read
import proofs.«412813_j26139170964397_3_alg».proof.Proof.Spec
import Idealize.ShloMosaic.Lib.ValueIdx
import Idealize.ShloMosaic.Lib.Pipeline.Value
import Idealize.ShloMosaic.PureOps.Ideal.Laws

noncomputable section

namespace Cert.Proof.RefValue

open Idealize.ShloMosaic Idealize.ShloMosaic.ValueIdx Cert.ReferenceIdeal Cert.ReferenceIdeal.Read

/-- An array of 512 × 768 read by row and column. -/
def rows (f : Cert.ReferenceIdeal.S512x768.Idx → EReal) : Fin 512 → Fin 768 → EReal := fun i n => f (ix2 i n)

/-- A natural number below 512, as a 32-bit word read signed, is itself. -/
theorem toInt_ofNat_small (a : Nat) (h : a < 512) : (BitVec.ofNat 32 a).toInt = (a : Int) := by
  rw [BitVec.toInt_ofNat']
  apply Int.bmod_eq_of_le <;> omega

/-- The mask is set exactly strictly above the diagonal: it is the negation of "row index ≥ column index". -/
theorem mask_apply (i j : Fin 512) :
    val_main_v17 (F := Ideal) (ix2 i j) = if i < j then 1#1 else 0#1 := by
  rw [val_main_v17_apply, val_main_call0_v4_apply, val_main_call0_v2_apply, val_main_call0_v0_apply,
    val_main_call0_v1_apply, val_main_call0_c_apply, val_main_call0_v3_apply, val_main_call0_v5_apply,
    val_main_call0_c_0_apply, val_main_v16_apply, val_main_c_2_apply]
  show Scalar.select (BitVec.ofBool ((BitVec.ofNat 32 j.val).sle (BitVec.ofNat 32 i.val + 0#32))) 0#1 1#1 = _
  have hle : (BitVec.ofNat 32 j.val).sle (BitVec.ofNat 32 i.val) = decide (j ≤ i) := by
    rw [BitVec.sle_eq_decide, toInt_ofNat_small _ j.isLt, toInt_ofNat_small _ i.isLt]
    exact decide_eq_decide.mpr (by rw [Int.ofNat_le, Fin.le_def])
  rw [BitVec.add_zero, hle]
  by_cases h : i < j
  · rw [if_pos h, decide_eq_false (not_le.mpr h)]; rfl
  · rw [if_neg h, decide_eq_true (not_lt.mp h)]; rfl

/-- One column's contribution to a pair of rows: the clamped difference of the two gathered entries, squared. -/
theorem sq_apply (x0 : (⟨S512x768, .f32⟩ : BufTy).Contents (Elt Ideal)) (x1 : (⟨S512, .i32⟩ : BufTy).Contents (Elt Ideal))
    (i j : Fin 512) (n : Fin 768) :
    val_main_v14 (F := Ideal) x0 x1 (ix3 i j n)
      = Spec.sqd (rows (val_main_v6 (F := Ideal) x0 x1) i n) (rows (val_main_v6 (F := Ideal) x0 x1) j n) := by
  have hi : idx_main_v7 (idx_main_v9 (ix3 i j n)) = ix2 i n := by
    funext a; match a with | ⟨0, _⟩ => rfl | ⟨1, _⟩ => rfl
  have hj : idx_main_v8 (idx_main_v10 (ix3 i j n)) = ix2 j n := by
    funext a; match a with | ⟨0, _⟩ => rfl | ⟨1, _⟩ => rfl
  rw [val_main_v14_apply, val_main_v13_apply, val_main_v11_apply, val_main_v9_apply, val_main_v7_apply,
    val_main_v10_apply, val_main_v8_apply, val_main_v12_apply, val_main_cst_apply, hi, hj,
    Ideal.ofBits_def, Ideal.ofBits_zero_f32, Ideal.maximumf_def, Ideal.subf_def, Ideal.mulf_def]
  rfl

/-- The sum over the columns is the pair's sum of the specification. -/
theorem pair_apply (x0 : (⟨S512x768, .f32⟩ : BufTy).Contents (Elt Ideal)) (x1 : (⟨S512, .i32⟩ : BufTy).Contents (Elt Ideal))
    (i j : Fin 512) :
    val_main_v15 (F := Ideal) x0 x1 (ix2 i j) = Spec.pair (rows (val_main_v6 (F := Ideal) x0 x1)) i j := by
  rw [val_main_v15_apply, val_main_cst_1_apply, Ideal.ofBits_def, Ideal.ofBits_zero_f32, zero_add]
  unfold Spec.pair
  refine Finset.sum_congr rfl fun n _ => ?_
  have hk : idx_main_v15 (ix2 i j) n = ix3 i j n := by
    funext a; match a with | ⟨0, _⟩ => rfl | ⟨1, _⟩ => rfl | ⟨2, _⟩ => rfl
  rw [hk, sq_apply]

/-- An entry of the masked square roots is the specification's term: above the diagonal the root of the pair's sum
    (the inner select keeps the sum there), elsewhere the outer select's zero, whatever the inner value. -/
theorem term_apply (x0 : (⟨S512x768, .f32⟩ : BufTy).Contents (Elt Ideal)) (x1 : (⟨S512, .i32⟩ : BufTy).Contents (Elt Ideal))
    (i j : Fin 512) :
    val_main_v20 (F := Ideal) x0 x1 (ix2 i j) = Spec.term (rows (val_main_v6 (F := Ideal) x0 x1)) i j := by
  rw [val_main_v20_apply, mask_apply]
  unfold Spec.term
  by_cases h : i < j
  · rw [if_pos h, if_pos h, select_one, val_main_v19_apply, Ideal.hostUnary_sqrt_def, val_main_v18_apply, mask_apply,
      if_pos h, select_one, pair_apply]
  · rw [if_neg h, if_neg h, select_zero, val_main_call2_v1_apply, val_main_call2_v0_apply, val_main_cst_4_apply,
      Ideal.ofBits_def, Ideal.ofBits_zero_f32]

/-- The reference's value is the loss of the gathered rows. -/
theorem ref_loss (x0 : (⟨S512x768, .f32⟩ : BufTy).Contents (Elt Ideal)) (x1 : (⟨S512, .i32⟩ : BufTy).Contents (Elt Ideal)) :
    val_main_v21 (F := Ideal) x0 x1
      = fun _ => Spec.loss (rows (val_main_v6 (F := Ideal) x0 x1)) := by
  funext s
  rw [val_main_v21_apply, val_main_cst_5_apply, Ideal.ofBits_def, Ideal.ofBits_zero_f32, zero_add, sum_idx2]
  unfold Spec.loss
  exact Finset.sum_congr rfl fun i _ => Finset.sum_congr rfl fun j _ => term_apply x0 x1 i j

end Cert.Proof.RefValue

end
-- ==== Proof.KValue.lean ====
/-
  The kernel's result as one number: the sum of all entries of the 36 × 8 × 128 array the pipeline leaves is the
  pairwise clamped-difference loss of the gathered rows.

  Grid point t stages row-block a = tileI t and row-block b = tileJ t of the gathered 512 × 768 array r (the two
  tables hold a and b at position t), and stores into block t of the result the 1 × 8 × 128 block that holds the
  tile's value Σ_{p,q} [64a + p < 64b + q] √(Σₙ max(r(64a+p, n) − r(64b+q, n), 0)²) at sublane 0, lane 0 and zero
  elsewhere. The 36 blocks tile the result, so the result is one function of r, index by index; summing it from
  zero leaves the sum of the 36 tiles, which is the loss.
-/
import proofs.«412813_j26139170964397_3_alg».proof.Proof.Data
import proofs.«412813_j26139170964397_3_alg».proof.Proof.Payload
import proofs.«412813_j26139170964397_3_alg».proof.Proof.Spec
import proofs.«412813_j26139170964397_3_alg».proof.Proof.RefValue
import Idealize.ShloMosaic.Lib.Pipeline.Value
import Idealize.ShloMosaic.Lib.ValueIdx
import Idealize.ShloMosaic.PureOps.Ideal.Laws

noncomputable section

namespace Cert.Proof.KI

open Cert.KernelIdeal Cert.KernelIdeal.Gen
open Idealize.ShloMosaic Idealize.ShloMosaic.ValueIdx
open Idealize.ShloMosaic.TcCoe
open Idealize.ShloMosaic.Pipeline (Dat Cfg Window)
open Cert.Proof

variable (m : (ℓ : Loc nD τ sig) → Buf (Elt Ideal) ℓ) (ρ : Dev nD → PrngReg)

/-! ## The grid, the tables and the index maps, decided once -/

/-- The output's block index at point `t` is `[t, 0, 0]`. -/
theorem idx2_fact : ∀ t : Fin grid0.N, cc0_transform_2 (grid0.coords t) = ![t.val, 0, 0] := by decide +kernel

/-- Each table's word at a grid point's own position is the tile's block number. -/
theorem tw_fact : ∀ t : Fin grid0.N,
    lit0 (S36.rowMajor ((Rect.unit (s := S36) (k0_off1 (grid0.coords t)) S1.size (k0_off1_inb (grid0.coords t))).emb
        (Shape.Idx.first (numel1_S1.symm ▸ Nat.one_pos)))) = BitVec.ofNat 32 (Spec.tileI t).val
    ∧ lit1 (S36.rowMajor ((Rect.unit (s := S36) (k0_off1 (grid0.coords t)) S1.size (k0_off1_inb (grid0.coords t))).emb
        (Shape.Idx.first (numel1_S1.symm ▸ Nat.one_pos)))) = BitVec.ofNat 32 (Spec.tileJ t).val := by
  decide +kernel

theorem tw0_eq (t : Fin (cfgA (F := Ideal)).N) : tw0 (F := Ideal) t = BitVec.ofNat 32 (Spec.tileI t).val := (tw_fact t).1
theorem tw1_eq (t : Fin (cfgA (F := Ideal)).N) : tw1 (F := Ideal) t = BitVec.ofNat 32 (Spec.tileJ t).val := (tw_fact t).2

/-- Window 0's block index at point `t` is `[tileI t, 0]`, -/
theorem index0 (t : Fin (cfgA (F := Ideal)).N) :
    ((cfgA (F := Ideal)).win 0).index t 0 = (Spec.tileI t).val ∧ ((cfgA (F := Ideal)).win 0).index t 1 = 0 := by
  refine ⟨?_, rfl⟩
  show (tw0 (F := Ideal) t).toNat = _
  rw [tw0_eq, BitVec.toNat_ofNat]
  have := (Spec.tileI t).isLt
  omega

/-- and window 1's is `[tileJ t, 0]`. -/
theorem index1 (t : Fin (cfgA (F := Ideal)).N) :
    ((cfgA (F := Ideal)).win 1).index t 0 = (Spec.tileJ t).val ∧ ((cfgA (F := Ideal)).win 1).index t 1 = 0 := by
  refine ⟨?_, rfl⟩
  show (tw1 (F := Ideal) t).toNat = _
  rw [tw1_eq, BitVec.toNat_ofNat]
  have := (Spec.tileJ t).isLt
  omega

/-! ## The staged input blocks as rows of the gathered array -/

/-- Window 0's block at point `t`, read at (p, n), is the gathered array at row `64 · tileI t + p`, column `n`:
    a block's coordinate is its index times its size plus the coordinate inside the block. -/
theorem inBlk0_apply (c : Dev nD) (t : Fin (cfgA (F := Ideal)).N) (p : Fin 64) (n : Fin 768) :
    inBlk m ρ c 0 t (ix2 p n) = V2 m ρ c main_v0 (ix2 (Spec.row (Spec.tileI t) p) n) := by
  obtain ⟨e0, e1⟩ := index0 t
  show V2 m ρ c main_v0 ((((cfgA (F := Ideal)).win 0).blk t).view.emb (ix2 p n)) = _
  congr 1
  funext a
  apply Fin.ext
  match a with
  | ⟨0, _⟩ =>
    show ((cfgA (F := Ideal)).win 0).index t 0 * 64 + 1 * p.val = 64 * (Spec.tileI t).val + p.val
    omega
  | ⟨1, _⟩ =>
    show ((cfgA (F := Ideal)).win 0).index t 1 * 768 + 1 * n.val = n.val
    omega

/-- Window 1's block likewise, at row `64 · tileJ t + q`. -/
theorem inBlk1_apply (c : Dev nD) (t : Fin (cfgA (F := Ideal)).N) (q : Fin 64) (n : Fin 768) :
    inBlk m ρ c 1 t (ix2 q n) = V2 m ρ c main_v0 (ix2 (Spec.row (Spec.tileJ t) q) n) := by
  obtain ⟨e0, e1⟩ := index1 t
  show V2 m ρ c main_v0 ((((cfgA (F := Ideal)).win 1).blk t).view.emb (ix2 q n)) = _
  congr 1
  funext a
  apply Fin.ext
  match a with
  | ⟨0, _⟩ =>
    show ((cfgA (F := Ideal)).win 1).index t 0 * 64 + 1 * q.val = 64 * (Spec.tileJ t).val + q.val
    omega
  | ⟨1, _⟩ =>
    show ((cfgA (F := Ideal)).win 1).index t 1 * 768 + 1 * n.val = n.val
    omega

/-! ## The stored block -/

/-- A 256-column chunk at column offset `off` of a 64 × 768 block `X`, read at (p, l), is `X` at (p, off + l). -/
theorem ck_apply (X : S64x768.Idx → Elt Ideal .f32) (X' : Fin 64 → Fin 768 → EReal)
    (hX : ∀ (p : Fin 64) (n : Fin 768), X (ix2 p n) = X' p n) (off : Nat)
    (h : ∀ a, (![0, off] : Fin 2 → Nat) a + S64x256.size a ≤ S64x768.size a) (p : Fin 64) (l : Fin 256)
    (hl : off + l.val < 768) : ck X off h (ix2 p l) = X' p ⟨off + l.val, hl⟩ := by
  rw [← hX]
  show X ((Rect.unit (s := S64x768) ![0, off] S64x256.size h).idx (ix2 p l)) = _
  congr 1
  funext a
  apply Fin.ext
  match a with
  | ⟨0, _⟩ => show 0 + 1 * p.val = p.val; omega
  | ⟨1, _⟩ => show off + 1 * l.val = off + l.val; omega

/-- The block a point stores, from the two block numbers and the two input blocks read by row and column:
    the tile's value at sublane 0, lane 0, zero elsewhere. -/
theorem outBlk_apply (a b : Fin 8) (X Y : S64x768.Idx → Elt Ideal .f32) (X' Y' : Fin 64 → Fin 768 → EReal)
    (hX : ∀ (p : Fin 64) (n : Fin 768), X (ix2 p n) = X' p n)
    (hY : ∀ (q : Fin 64) (n : Fin 768), Y (ix2 q n) = Y' q n) (u : Fin 1) (s : Fin 8) (l : Fin 128) :
    outBlk (F := Ideal) (BitVec.ofNat 32 a.val) (BitVec.ofNat 32 b.val) X Y (ix3 u s l)
      = if s.val = 0 ∧ l.val = 0 then Spec.tileXY X' Y' a b else 0 := by
  unfold outBlk
  refine Payload.payload_ix3 a b X' Y' _ _ _ _ _ _ (fun p l => ?_) (fun p l => ?_) (fun p l => ?_)
    (fun q l => ?_) (fun q l => ?_) (fun q l => ?_) u s l
  · exact (ck_apply X X' hX 0 _ p l (by omega)).trans (congrArg (X' p) (Fin.ext (Nat.zero_add _)))
  · exact ck_apply X X' hX 256 _ p l (by omega)
  · exact ck_apply X X' hX 512 _ p l (by omega)
  · exact (ck_apply Y Y' hY 0 _ q l (by omega)).trans (congrArg (Y' q) (Fin.ext (Nat.zero_add _)))
  · exact ck_apply Y Y' hY 256 _ q l (by omega)
  · exact ck_apply Y Y' hY 512 _ q l (by omega)

/-! ## The whole result -/

/-- The rows of 64-row block `a` of a 512 × 768 array. -/
def blkRows (A : S512x768.Idx → EReal) (a : Fin 8) : Fin 64 → Fin 768 → EReal :=
  fun p n => A (ix2 (Spec.row a p) n)

/-- Tile `t`'s value, from the array. -/
def tileVal (A : S512x768.Idx → EReal) (t : Fin 36) : EReal :=
  Spec.tileXY (blkRows A (Spec.tileI t)) (blkRows A (Spec.tileJ t)) (Spec.tileI t) (Spec.tileJ t)

/-- The 36 × 8 × 128 result as one function of the gathered array: tile `t`'s value at (t, 0, 0), zero elsewhere. -/
def res (A : S512x768.Idx → EReal) : S36x8x128.Idx → EReal :=
  fun i => if (i 1).val = 0 ∧ (i 2).val = 0 then tileVal A (i 0) else 0

/-- What point `t` writes back is block `t` of `res` of the gathered array. -/
theorem flushed_eq (c : Dev nD) (t : Fin (cfgA (F := Ideal)).N) :
    (dats (F := Ideal) m ρ 0 c).flushed 2 t
      = (((cfgA (F := Ideal)).win 2).blk t).view.read (Elt Ideal) (res (V2 m ρ c main_v0)) := by
  show ((cfgA (F := Ideal)).win 2).cut (grid0.coords t) ((dats (F := Ideal) m ρ 0 c).after 2 t) = _
  dsimp only [dats]
  funext j
  obtain ⟨u, s, l, rfl⟩ : ∃ (u : Fin 1) (s : Fin 8) (l : Fin 128), j = ix3 u s l := ⟨j 0, j 1, j 2, eq_ix3 j⟩
  have hj : ((cfgA (F := Ideal)).win 2).xinj (grid0.coords t) (ix3 u s l) = ix3 u s l := by
    funext a
    match a with
    | ⟨0, _⟩ => rfl
    | ⟨1, _⟩ => rfl
    | ⟨2, _⟩ => rfl
  have hi : (((cfgA (F := Ideal)).win 2).blk t).view.emb (ix3 u s l) = ix3 (n0 := 36) ⟨t.val, t.isLt⟩ s l := by
    have e := idx2_fact t
    have e0 : cc0_transform_2 (grid0.coords t) 0 = t.val := congrFun e 0
    have e1 : cc0_transform_2 (grid0.coords t) 1 = 0 := congrFun e 1
    have e2 : cc0_transform_2 (grid0.coords t) 2 = 0 := congrFun e 2
    have hu : u.val = 0 := by have := u.isLt; omega
    funext a
    apply Fin.ext
    match a with
    | ⟨0, _⟩ => show cc0_transform_2 (grid0.coords t) 0 * 1 + 1 * u.val = t.val; omega
    | ⟨1, _⟩ => show cc0_transform_2 (grid0.coords t) 1 * 8 + 1 * s.val = s.val; omega
    | ⟨2, _⟩ => show cc0_transform_2 (grid0.coords t) 2 * 128 + 1 * l.val = l.val; omega
  show outBlk (F := Ideal) (tw0 (F := Ideal) t) (tw1 (F := Ideal) t) (inBlk m ρ c 0 t) (inBlk m ρ c 1 t)
      (((cfgA (F := Ideal)).win 2).xinj (grid0.coords t) (ix3 u s l))
    = res (V2 m ρ c main_v0) ((((cfgA (F := Ideal)).win 2).blk t).view.emb (ix3 u s l))
  rw [hj, hi, tw0_eq, tw1_eq]
  exact outBlk_apply (Spec.tileI t) (Spec.tileJ t) (inBlk m ρ c 0 t) (inBlk m ρ c 1 t)
    (blkRows (V2 m ρ c main_v0) (Spec.tileI t)) (blkRows (V2 m ρ c main_v0) (Spec.tileJ t))
    (inBlk0_apply m ρ c t) (inBlk1_apply m ρ c t) u s l

/-- The output's block index moves at every point, so every point writes its block back. -/
theorem flush_fact : ∀ t : Fin grid0.N,
    (decide (t.val + 1 = grid0.N) || decide (∃ h : t.val + 1 < grid0.N,
      cc0_transform_2 (grid0.coords ⟨t.val + 1, h⟩) ≠ cc0_transform_2 (grid0.coords t))) = true := by
  decide +kernel

theorem flush2 (t : Fin (cfgA (F := Ideal)).N) : ((cfgA (F := Ideal)).win 2).flush t = true := by
  unfold Window.flush
  exact (Bool.true_and _).trans (flush_fact t)

/-- An index of the result is in point `t`'s block iff each coordinate is in the block's range on its axis. -/
theorem mem_blk2 (t : Fin (cfgA (F := Ideal)).N) (i : S36x8x128.Idx) :
    i ∈ (((cfgA (F := Ideal)).win 2).blk t).view.set
      ↔ ∀ a : Fin 3, cc0_transform_2 (grid0.coords t) a * S1x8x128.size a ≤ (i a).val
          ∧ (i a).val < cc0_transform_2 (grid0.coords t) a * S1x8x128.size a + S1x8x128.size a := by
  show i ∈ ((View.whole main_v1).slice (((cfgA (F := Ideal)).win 2).rect t)).set ↔ _
  rw [View.set_slice_whole, Rect.mem_set_unit]
  exact Iff.rfl

/-- The 36 blocks tile the result: (t, s, l) lies in point `t`'s block. -/
theorem cover (i : S36x8x128.Idx) :
    ∃ t : Fin (cfgA (F := Ideal)).N, ((cfgA (F := Ideal)).win 2).flush t = true
      ∧ i ∈ (((cfgA (F := Ideal)).win 2).blk t).view.set := by
  refine ⟨⟨(i 0).val, (i 0).isLt⟩, flush2 _, ?_⟩
  rw [mem_blk2]
  have e := idx2_fact ⟨(i 0).val, (i 0).isLt⟩
  have h1 : (i 1).val < 8 := (i 1).isLt
  have h2 : (i 2).val < 128 := (i 2).isLt
  intro a
  match a with
  | ⟨0, _⟩ =>
    have e0 : cc0_transform_2 (grid0.coords ⟨(i 0).val, (i 0).isLt⟩) 0 = (i 0).val := congrFun e 0
    show cc0_transform_2 (grid0.coords ⟨(i 0).val, (i 0).isLt⟩) 0 * 1 ≤ (i 0).val
      ∧ (i 0).val < cc0_transform_2 (grid0.coords ⟨(i 0).val, (i 0).isLt⟩) 0 * 1 + 1
    omega
  | ⟨1, _⟩ =>
    have e1 : cc0_transform_2 (grid0.coords ⟨(i 0).val, (i 0).isLt⟩) 1 = 0 := congrFun e 1
    show cc0_transform_2 (grid0.coords ⟨(i 0).val, (i 0).isLt⟩) 1 * 8 ≤ (i 1).val
      ∧ (i 1).val < cc0_transform_2 (grid0.coords ⟨(i 0).val, (i 0).isLt⟩) 1 * 8 + 8
    omega
  | ⟨2, _⟩ =>
    have e2 : cc0_transform_2 (grid0.coords ⟨(i 0).val, (i 0).isLt⟩) 2 = 0 := congrFun e 2
    show cc0_transform_2 (grid0.coords ⟨(i 0).val, (i 0).isLt⟩) 2 * 128 ≤ (i 2).val
      ∧ (i 2).val < cc0_transform_2 (grid0.coords ⟨(i 0).val, (i 0).isLt⟩) 2 * 128 + 128
    omega

/-- So the result array ends holding `res` of the gathered array. -/
theorem final (c : Dev nD) :
    (dats (F := Ideal) m ρ 0 c).arrAt 2 (cfgA (F := Ideal)).N = res (V2 m ρ c main_v0) :=
  (dats (F := Ideal) m ρ 0 c).arrAt_eq_of_cover 2 (res (V2 m ρ c main_v0)) (fun t _ => flushed_eq m ρ c t) cover

/-! ## The sum of the result -/

/-- A rank-3 index set is the product of its three coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Summing `res` over all its entries leaves the sum of the 36 tiles, which is the loss. -/
theorem sum_res (A : S512x768.Idx → EReal) :
    ∑ i : S36x8x128.Idx, res A i = Spec.loss (RefValue.rows A) := by
  rw [sum_idx3, Spec.loss_eq_tiles]
  refine (Spec.sum_padded (tileVal A)).trans (Finset.sum_congr rfl fun t _ => ?_)
  rw [Spec.tile_eq_tileXY]
  rfl

/-- The host's sum, from zero, of the array the pipeline leaves is the loss of the gathered rows. -/
theorem kernel_sum (c : Dev nD) :
    Host.reduceAdd (F := Ideal) ((dats (F := Ideal) m ρ 0 c).arrAt 2 (cfgA (F := Ideal)).N)
        (constant (F := Ideal) S_ .f32 0x00000000#32) reducesTo_S36x8x128_S_d0_1_2 h_S_
      = fun _ => Spec.loss (RefValue.rows (V2 m ρ c main_v0)) := by
  rw [final]
  funext j
  simp only [Host.reduceAdd, Ideal.hostReduceAdd_def]
  rw [Ideal.hostReduceAdd_total reducesTo_S36x8x128_S_d0_1_2 (fun b => b.elim0), sum_res]
  show FloatOps.ofBits (F := Ideal) .f32 0x00000000#32 + _ = _
  rw [Ideal.ofBits_def, Ideal.ofBits_zero_f32, zero_add]

end Cert.Proof.KI

end
-- ==== Proof.Take.lean ====
/-
  The row gather of the kernel program against the reference's. Both wrap a negative index by adding 512 and
  gather rows of the table at the wrapped indices; the kernel program then keeps a gathered row only where the
  wrapped index lies in [0, 511] and fills the rest with a NaN word. The added precondition puts every index in
  [-512, 512): the wrapped index is then in [0, 511], the validity mask is 1 everywhere, the select returns the
  gathered array, and the two arrays are equal.

  * `range_of_pre`: the precondition's integer half, decoded to the range of every index;
  * `take_eq_ref`: under that range the kernel program's gathered array is the reference's;
  * `take_keeps`: the gather's operations write neither argument nor a prefetched table.
-/
import proofs.«412813_j26139170964397_3_alg».proof.Defs
import proofs.«412813_j26139170964397_3_alg».proof.Proof.Gen.KernelIdeal.Launch
import proofs.«412813_j26139170964397_3_alg».proof.Proof.Gen.KernelIdeal
import proofs.«412813_j26139170964397_3_alg».proof.Proof.Gen.ReferenceIdeal.Read
import proofs.«412813_j26139170964397_3_alg».proof.Proof.Gen.Pre_finite_inputs
import Idealize.ShloMosaic.Lib.StableHlo.Run
import Idealize.ShloMosaic.Lib.ReduceAll
import Idealize.ShloMosaic.Lib.WordArith

noncomputable section

namespace Cert.Proof.Take

open Idealize.ShloMosaic Idealize.SL.Sem

theorem ofBool_one (b : Bool) : BitVec.ofBool b = 1#1 ↔ b = true := by cases b <;> decide

/-- A word in [-512, 512), wrapped by adding 512 when negative, lies in [0, 511]. -/
theorem wrap_in_range (x : BitVec 32) (h1 : -512 ≤ x.toInt) (h2 : x.toInt < 512) :
    IntOp.andi (IntOp.cmpi .sge (Scalar.select (IntOp.cmpi .slt x 0#32) (IntOp.addi x 512#32) x) 0#32)
               (IntOp.cmpi .sle (Scalar.select (IntOp.cmpi .slt x 0#32) (IntOp.addi x 512#32) x) 511#32) = 1#1 := by
  have h512 : (512#32 : BitVec 32).toInt = 512 := by decide
  have h511 : (511#32 : BitVec 32).toInt = 511 := by decide
  have h0 : (0#32 : BitVec 32).toInt = 0 := by decide
  rw [IntOp.andi_eq_one]
  by_cases hs : x.slt 0#32 = true
  · have hneg : x.toInt < 0 := by
      have := BitVec.slt_iff_toInt_lt.mp hs
      omega
    have hw : Scalar.select (IntOp.cmpi .slt x 0#32) (IntOp.addi x 512#32) x = x + 512#32 := by
      simp only [IntOp.cmpi, hs]
      rfl
    have ht : (x + 512#32).toInt = x.toInt + 512 := by
      have := WordArith.toInt_add_of_bounds x 512#32 (by rw [h512]; omega) (by rw [h512]; omega)
      rw [this, h512]
    rw [hw]
    refine ⟨?_, ?_⟩
    · simp only [IntOp.cmpi, ofBool_one, BitVec.sle_iff_toInt_le, ht, h0]; omega
    · simp only [IntOp.cmpi, ofBool_one, BitVec.sle_iff_toInt_le, ht, h511]; omega
  · have hpos : ¬ x.toInt < 0 := fun h => hs (BitVec.slt_iff_toInt_lt.mpr (by rw [h0]; exact h))
    have hs' : x.slt 0#32 = false := by simpa using hs
    have hw : Scalar.select (IntOp.cmpi .slt x 0#32) (IntOp.addi x 512#32) x = x := by
      simp only [IntOp.cmpi, hs']
      rfl
    rw [hw]
    refine ⟨?_, ?_⟩
    · simp only [IntOp.cmpi, ofBool_one, BitVec.sle_iff_toInt_le, h0]; omega
    · simp only [IntOp.cmpi, ofBool_one, BitVec.sle_iff_toInt_le, h511]; omega

/-- A reduction by `and`, from 1, of an array that is 1 everywhere is 1 everywhere. -/
theorem reduce_andi_ones {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  unfold Host.reduce
  rw [hi]
  generalize ((List.finRange s.numel).filter fun n => h.drop (s.rowMajor.symm n) = j) = l
  have h11 : IntOp.andi 1#1 1#1 = 1#1 := by decide
  induction l with
  | nil => rfl
  | cons a l ih => rw [List.foldl_cons, hx, h11]; exact ih

/-- A select whose condition is 1 everywhere is its first branch. -/
theorem select_ones {s : Shape} {α : Type} (a b : s.Idx → α) : select (fun _ => 1#1) a b = a := by
  funext i
  show (if (1#1 : BitVec 1) = 1 then a i else b i) = a i
  rw [if_pos (by decide)]

section Kernel
open Cert.KernelIdeal Cert.KernelIdeal.Gen

/-- Under the range condition every wrapped index passes both bounds checks. -/
theorem valid_all (x1 : IVec S512 32) (hr : ∀ k, -512 ≤ (x1 k).toInt ∧ (x1 k).toInt < 512) (i : S512x1.Idx) :
    andi
      (cmpi CmpIPredicate.sge
        (broadcastInDim S512x1 ![0] bcast_S512_S512x1_0
          (select (cmpi CmpIPredicate.slt x1 (broadcastInDim S512 ![] bcast_S_S512 (constantI S_ 32 0#32)))
            (addi x1 (broadcastInDim S512 ![] bcast_S_S512 (constantI S_ 32 512#32))) x1))
        (broadcastInDim S512x1 ![] bcast_S_S512x1 (constantI S_ 32 0#32)))
      (cmpi CmpIPredicate.sle
        (broadcastInDim S512x1 ![0] bcast_S512_S512x1_0
          (select (cmpi CmpIPredicate.slt x1 (broadcastInDim S512 ![] bcast_S_S512 (constantI S_ 32 0#32)))
            (addi x1 (broadcastInDim S512 ![] bcast_S_S512 (constantI S_ 32 512#32))) x1))
        (broadcastInDim S512x1 ![0, 1] bcast_S1x1_S512x1_0_1
          (broadcastInDim S1x1 ![1] bcast_S1_S1x1_1 (constantI S1 32 511#32)))) i = 1#1 := by
  simp only [andi, cmpi, broadcastInDim, constantI, select, addi]
  exact wrap_in_range (x1 _) (hr _).1 (hr _).2

/-- Hence the validity mask, reduced over its unit axis and broadcast along the rows, is 1 everywhere. -/
theorem mask_ones (x1 : IVec S512 32) (hr : ∀ k, -512 ≤ (x1 k).toInt ∧ (x1 k).toInt < 512) :
    broadcastInDim S512x768 ![0] bcast_S512_S512x768_0
      (Host.reduce IntOp.andi
        (andi
          (cmpi CmpIPredicate.sge
            (broadcastInDim S512x1 ![0] bcast_S512_S512x1_0
              (select (cmpi CmpIPredicate.slt x1 (broadcastInDim S512 ![] bcast_S_S512 (constantI S_ 32 0#32)))
                (addi x1 (broadcastInDim S512 ![] bcast_S_S512 (constantI S_ 32 512#32))) x1))
            (broadcastInDim S512x1 ![] bcast_S_S512x1 (constantI S_ 32 0#32)))
          (cmpi CmpIPredicate.sle
            (broadcastInDim S512x1 ![0] bcast_S512_S512x1_0
              (select (cmpi CmpIPredicate.slt x1 (broadcastInDim S512 ![] bcast_S_S512 (constantI S_ 32 0#32)))
                (addi x1 (broadcastInDim S512 ![] bcast_S_S512 (constantI S_ 32 512#32))) x1))
            (broadcastInDim S512x1 ![0, 1] bcast_S1x1_S512x1_0_1
              (broadcastInDim S1x1 ![1] bcast_S1_S1x1_1 (constantI S1 32 511#32)))))
        (constantI S_ 1 1#1) reducesTo_S512x1_S512_d1 h_S_) = fun _ => 1#1 := by
  funext j
  show Host.reduce IntOp.andi _ _ _ _ _ = 1#1
  exact reduce_andi_ones _ _ _ _ rfl (valid_all x1 hr) _

end Kernel

/-- Under the range condition the kernel program's guarded row gather leaves in its result buffer exactly the
    reference's gathered array. -/
theorem take_eq_ref [Cert.KernelIdeal.Facts] [Cert.ReferenceIdeal.Facts] (V : Valuation Cert.KernelIdeal.τ Cert.KernelIdeal.sig (Elt Ideal))
    (hr : ∀ k, -512 ≤ ((V (Proc.devRef .tc Cert.KernelIdeal.main_arg1)) k).toInt ∧ ((V (Proc.devRef .tc Cert.KernelIdeal.main_arg1)) k).toInt < 512) :
    StableHlo.after (Cert.KernelIdeal.Gen.hostOps0_1 (F := Ideal)) V (Proc.devRef .tc Cert.KernelIdeal.main_v0)
      = Cert.ReferenceIdeal.Read.val_main_v6 (F := Ideal) (V (Proc.devRef .tc Cert.KernelIdeal.main_arg0)) (V (Proc.devRef .tc Cert.KernelIdeal.main_arg1)) := by
  simp only [Cert.KernelIdeal.Gen.hostOps0_1]
  after_results_simp
  dsimp only [StableHlo.TRef.ofBuf, StableHlo.TRef.toBuf, cast_eq]
  rw [mask_ones (V (Proc.devRef .tc Cert.KernelIdeal.main_arg1)) hr, select_ones]
  rfl

section Pre
open Cert.Pre_finite_inputs

/-- The added precondition, decoded: every index lies in [-512, 512). The predicate is the conjunction of a
    float half (every table entry finite, not needed here) and `all (-512 ≤ idx ∧ idx < 512)`: a conjunction
    that is 1 has both halves 1, a reduction by `and` that is 1 met only 1s, and a signed comparison's bit
    says the integers compare. -/
theorem range_of_pre [Cert.Pre_finite_inputs.Facts] {F : FTy → Type} [FloatOps F] (x0 : FVec F S512x768 .f32) (x1 : IVec S512 32)
    (h : fn (F := F) x0 x1 = fun _ => 1#1) :
    ∀ k : S512.Idx, -512 ≤ (x1 k).toInt ∧ (x1 k).toInt < 512 := by
  intro k
  haveI : Subsingleton S_.Idx := ⟨fun a b => funext fun d => d.elim0⟩
  have hm512 : (4294966784#32 : BitVec 32).toInt = -512 := by decide
  have h512 : (512#32 : BitVec 32).toInt = 512 := by decide
  have e := congrFun h (fun a => a.elim0)
  simp only [fn] at e
  have e' : IntOp.andi _ _ = 1#1 := e
  have e9 := (IntOp.andi_eq_one.1 e').2
  have hk := Host.reduce_andi_all _ _ _ _ _ e9 k
  simp only [andi, cmpi, broadcastInDim, constantI] at hk
  rw [IntOp.andi_eq_one] at hk
  simp only [IntOp.cmpi, ofBool_one, BitVec.sle_iff_toInt_le, BitVec.slt_iff_toInt_lt, hm512, h512] at hk
  exact hk

end Pre

/-- The kernel program's row gather writes neither argument nor a prefetched table. -/
theorem take_keeps {F : FTy → Type} [FloatOps F] (V : Valuation Cert.KernelIdeal.τ Cert.KernelIdeal.sig (Elt F)) (b : Ref Cert.KernelIdeal.sig .tc)
    (hb : b = Cert.KernelIdeal.main_arg0 ∨ b = Cert.KernelIdeal.main_arg1 ∨ b = Cert.KernelIdeal.main_c ∨ b = Cert.KernelIdeal.main_c_0) :
    StableHlo.after (Cert.KernelIdeal.Gen.hostOps0_1 (F := F)) V (Proc.devRef .tc b) = V (Proc.devRef .tc b) := by
  rcases hb with rfl | rfl | rfl | rfl
  all_goals
    simp only [Cert.KernelIdeal.Gen.hostOps0_1]
    after_results_simp

end Cert.Proof.Take
end
-- ==== Proof.Final.lean ====
/-
  The two programs compute the same number.

  Under the precondition every index lies in [-512, 512), so after wrapping the negative ones every index is a
  valid row and the kernel program's gather keeps every gathered row: its array is the reference's gathered array r.
  The kernel program's result is the sum of its 36 × 8 × 128 output, which holds each tile's value once and zero
  elsewhere: the sum of the 36 tiles on or above the diagonal, which is the loss of r. The reference's result is the
  loss of r read pair by pair.
-/
import proofs.«412813_j26139170964397_3_alg».proof.Proof.Run
import proofs.«412813_j26139170964397_3_alg».proof.Proof.KValue
import proofs.«412813_j26139170964397_3_alg».proof.Proof.Take
import proofs.«412813_j26139170964397_3_alg».proof.Proof.RefValue

noncomputable section

namespace Cert.Proof.KI

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Under the precondition the kernel program's gathered array is the reference's. -/
theorem gathered_eq_ref (c : Dev nD)
    (hpre : Cert.Pre_finite_inputs.fn (F := Ideal) (m ((c : Thread nD τ).loc main_arg0)) (m ((c : Thread nD τ).loc main_arg1)) = fun _ => 1#1) :
    V2 m ρ c main_v0
      = Cert.ReferenceIdeal.Read.val_main_v6 (F := Ideal) (m ((c : Thread nD τ).loc main_arg0)) (m ((c : Thread nD τ).loc main_arg1)) := by
  have hr := Cert.Proof.Take.range_of_pre _ _ hpre
  have h := Cert.Proof.Take.take_eq_ref (V1 m ρ c) (by rw [V1_arg1]; exact hr)
  rw [V1_arg0, V1_arg1] at h
  exact h

/-- Under the precondition the kernel program's result is the reference's value of the same arguments. -/
theorem result_eq_ref (c : Dev nD)
    (hpre : Cert.Pre_finite_inputs.fn (F := Ideal) (m ((c : Thread nD τ).loc main_arg0)) (m ((c : Thread nD τ).loc main_arg1)) = fun _ => 1#1) :
    V4 m ρ c (Proc.devRef .tc main_v2)
      = Cert.ReferenceIdeal.Read.val_main_v21 (F := Ideal) (m ((c : Thread nD τ).loc main_arg0)) (m ((c : Thread nD τ).loc main_arg1)) := by
  rw [V4_result, kernel_sum, Cert.Proof.RefValue.ref_loss, gathered_eq_ref m ρ c hpre]

end Cert.Proof.KI

end
-- ==== Proof.KB.Body.lean ====
/-
  The kernel's body at one grid point.

  The body reads the point's two table words, loads the three 256-column chunks of each of its two staged 64-row
  blocks, forms the tile's value from them, and stores one 1 × 8 × 128 block whole into the output's staging
  buffer. Run from the two tables, the two input blocks and the output buffer held, it returns them with the
  output buffer overwritten by that block; nothing else is touched.
-/
import proofs.«412813_j26139170964397_3_alg».proof.Proof.Gen.Kernel.Skeleton
import proofs.«412813_j26139170964397_3_alg».proof.Proof.Gen.Kernel.Launch
import Idealize.ShloMosaic.Lib.Tactic
import Idealize.ShloMosaic.Lib.Pipeline.Kit

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents type, and the buffer held at a share at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The word of a 36-entry table at the grid point's own position. -/
abbrev wordAt (c : Dev nD) (i : grid0.Coords) (Mt : Memref sig .tc .smem S36 .i32) (tb : Bf (F := F) c Mt) : Elt F .i32 :=
  View.readAt (Elt F) Mt.view (Rect.unit (s := S36) (k0_off1 i) S1.size (k0_off1_inb i)).toLoadRect tb
    (Shape.Idx.first (Nat.one_pos : 0 < 1))

/-- Columns `off … off + 255` of a staged 64 × 768 block. -/
abbrev chunk (c : Dev nD) (M : Memref sig .tc .vmem S64x768 .f32) (x : Bf (F := F) c M) (off : Nat)
    (h : ∀ a, (![0, off] : Fin 2 → Nat) a + S64x256.size a ≤ S64x768.size a) : Vec F S64x256 .f32 :=
  View.readAt (Elt F) M.view (Rect.unit (s := S64x768) ![0, off] S64x256.size h).toLoadRect x

/-- The block the body stores: the tile's value placed at lane 0 of sublane 0, zero elsewhere, as the body's
    arithmetic on the two table words and the six chunks. -/
def outVal (c : Dev nD) (i : grid0.Coords) (M3 M4 : Memref sig .tc .vmem S64x768 .f32)
    (t0 : Bf (F := F) c (Memref.whole main_c)) (t1 : Bf (F := F) c (Memref.whole main_c_0))
    (x : Bf (F := F) c M3) (y : Bf (F := F) c M4) : FVec F S1x8x128 .f32 :=
  k0_pay1 (wordAt c i (Memref.whole main_c) t0) (wordAt c i (Memref.whole main_c_0) t1)
    (k0_pay2 (chunk c M3 x 0 inb_S64x768_S64x256_0_0) (chunk c M4 y 0 inb_S64x768_S64x256_0_0)
      (chunk c M3 x 256 inb_S64x768_S64x256_0_256) (chunk c M4 y 256 inb_S64x768_S64x256_0_256))
    (k0_pay3 (chunk c M3 x 512 inb_S64x768_S64x256_0_512) (chunk c M4 y 512 inb_S64x768_S64x256_0_512))

/-- The body's run: tables and input blocks handed back as found (at whatever shares they were held), the output
    buffer overwritten whole by `outVal`. -/
theorem kernelRun (c : Dev nD) (i : grid0.Coords)
    (M3 M4 : Memref sig .tc .vmem S64x768 .f32) (h3 : M3.IsWhole) (h4 : M4.IsWhole)
    (M5 : Memref sig .tc .vmem S1x8x128 .f32) (h5 : M5.IsWhole) (q0 q1 : PosShare TreeShare)
    (t0 : Bf (F := F) c (Memref.whole main_c)) (t1 : Bf (F := F) c (Memref.whole main_c_0))
    (x : Bf (F := F) c M3) (y : Bf (F := F) c M4) (z : Bf (F := F) c M5) (Q : PUnit → sProp 𝕄) :
    iprop(pt c (Memref.whole main_c) q0 t0 ∗ pt c (Memref.whole main_c_0) q1 t1
      ∗ pt c M3 fullShare x ∗ pt c M4 fullShare y ∗ pt c M5 fullShare z
      ∗ (iprop(pt c (Memref.whole main_c) q0 t0 ∗ pt c (Memref.whole main_c_0) q1 t1
            ∗ pt c M3 fullShare x ∗ pt c M4 fullShare y
            ∗ pt c M5 fullShare (M5.view.writes (Elt F) z
                [⟨Rect.unit (s := S1x8x128) ![0, 0, 0] S1x8x128.size inb_S1x8x128_S1x8x128_0_0_0, outVal c i M3 M4 t0 t1 x y⟩])) -∗ Q ⟨⟩))
    ⊢ wp frame (wpE (defs₀ (F := F)) Variants.none c none) Set.univ
        (cc0__kernel i (Memref.whole main_c) (Memref.isWhole_whole _) (Memref.whole main_c_0) (Memref.isWhole_whole _) M3 h3 M4 h4 M5 h5) Q := by
  iintro ⟨Ht0, Ht1, H3, H4, H5, Hk⟩
  sl_unfold [cc0__kernel]
  sl_exec
  sl_unfold_words
  sl_step
  iapply Hk
  isplitl [Ht0]; · iexact Ht0
  isplitl [Ht1]; · iexact Ht1
  isplitl [H3]; · iexact H3
  isplitl [H4]; · iexact H4
  iexact H5

end Cert.Proof.KB

end
-- ==== Proof.KB.Layout.lean ====
/-
  The pipeline's tables and index maps in closed form.

  The kernel visits the 36 tile pairs (a, b), a ≤ b, of an 8 × 8 grid of 64-row blocks; two constant tables give
  a and b at each grid point, window 0 stages row-block a, window 1 row-block b of the gathered array, and the
  output window's block at point t is block t of the 36 × 8 × 128 result. Every table entry is at most 7, so
  every staged block lies inside the 512-row array.
-/
import proofs.«412813_j26139170964397_3_alg».proof.Proof.Gen.Kernel.Launch

noncomputable section

namespace Cert.Proof.KB

open Cert.Kernel Cert.Kernel.Gen
open Idealize.ShloMosaic Idealize.ShloMosaic.TcCoe

variable {F : FTy → Type} [FloatOps F]

/-- The two tables' contents: the row-block and the column-block of each tile. -/
def tbl : pre0.Contents (Elt F) := fun
  | 0 => fun i => lit0 (S36.rowMajor i)
  | 1 => fun i => lit1 (S36.rowMajor i)
  | ⟨_ + 2, h⟩ => absurd h (Nat.not_lt.2 (Nat.le_add_left _ _))

/-- No table entry exceeds 7: -/
theorem lit0_le : ∀ j : Fin 36, (lit0 j).toNat ≤ 7 := by decide
theorem lit1_le : ∀ j : Fin 36, (lit1 j).toNat ≤ 7 := by decide

/-- so every 64-row block the tables select lies inside the 512-row array (a table entry e gives rows 64e … 64e + 63,
    and (e + 1) · 64 ≤ 512), all 768 columns of it; the elements are whole words. -/
theorem ok_tbl : ok0 (F := F) tbl := by
  refine ⟨fun i => ⟨fun a => ?_, .inl rfl⟩, fun i => ⟨fun a => ?_, .inl rfl⟩⟩
  · match a with
    | ⟨0, _⟩ =>
      show ((lit0 (S36.rowMajor _)).toNat + 1) * 64 ≤ 512
      exact Nat.mul_le_mul_right 64 (Nat.succ_le_succ (lit0_le _))
    | ⟨1, _⟩ => show (0 + 1) * 768 ≤ 768; omega
  · match a with
    | ⟨0, _⟩ =>
      show ((lit1 (S36.rowMajor _)).toNat + 1) * 64 ≤ 512
      exact Nat.mul_le_mul_right 64 (Nat.succ_le_succ (lit1_le _))
    | ⟨1, _⟩ => show (0 + 1) * 768 ≤ 768; omega

/-- The pipeline is run at these tables. -/
def adm : (p : Fin 1) → (pcfgs (F := F) p).Adm := fun _ => ⟨tbl, ok_tbl⟩

/-- The pipeline at the tables' contents. -/
abbrev cfgA : Pipeline.Cfg sig Λ₀ := cfg0 (adm (F := F) 0)

end Cert.Proof.KB

end
-- ==== Proof.KB.Data.lean ====
/-
  The pipeline's proof data: what each staging buffer holds after the body at each of the 36 grid points.

  Before the region, the host has written the two tables and gathered the rows; the windows' arrays are the
  gathered array (twice: the row block and the column block are cut from the same array) and the 36 × 8 × 128
  result. The body only reads its two input blocks, so after it they hold the blocks they held; it overwrites the
  output block whole with the tile's block. The invariant carried from point to point is the two tables, which
  the body reads and returns, and the scoped buffers no window stages (there are none).
-/
import proofs.«412813_j26139170964397_3_alg».proof.Proof.KB.Body
import proofs.«412813_j26139170964397_3_alg».proof.Proof.KB.Layout
import Idealize.ShloMosaic.Lib.Pipeline.Regions
import Idealize.ShloMosaic.Lib.Pipeline.Frame
import Idealize.ShloMosaic.Lib.Pipeline.FrameBody
import Idealize.ShloMosaic.Lib.Pipeline.Value
import Idealize.ShloMosaic.Lib.StableHlo.Run

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents along @main -/

/-- Core `c`'s buffers at launch, -/
abbrev V₀ (c : Dev nD) : Valuation τ sig (Elt F) := fun b => (s₀ m ρ).mem ((c : Dev nD), b)
/-- after the two table constants are written, -/
abbrev V1 (c : Dev nD) : Valuation τ sig (Elt F) := StableHlo.after hostOps0 (V₀ m ρ c)
/-- and after the rows are gathered: what the region is entered with. -/
abbrev V2v (c : Dev nD) : Valuation τ sig (Elt F) := StableHlo.after hostOps0_1 (V1 m ρ c)
abbrev V2 (c : Dev nD) (b : Ref sig .tc) : Buf (Elt F) ((c : Thread nD τ).loc b) := V2v m ρ c b

/-! ## The proof data -/

/-- The three 256-column chunks of a 64 × 768 block. -/
abbrev ck (X : S64x768.Idx → Elt F .f32) (off : Nat) (h : ∀ a, (![0, off] : Fin 2 → Nat) a + S64x256.size a ≤ S64x768.size a) :
    Vec F S64x256 .f32 := View.ld X (Rect.unit (s := S64x768) ![0, off] S64x256.size h)

/-- The block the body stores, from the point's two table words and its two input blocks. -/
def outBlk (w0 w1 : BitVec 32) (X Y : S64x768.Idx → Elt F .f32) : FVec F S1x8x128 .f32 :=
  k0_pay1 w0 w1
    (k0_pay2 (ck X 0 inb_S64x768_S64x256_0_0) (ck Y 0 inb_S64x768_S64x256_0_0)
      (ck X 256 inb_S64x768_S64x256_0_256) (ck Y 256 inb_S64x768_S64x256_0_256))
    (k0_pay3 (ck X 512 inb_S64x768_S64x256_0_512) (ck Y 512 inb_S64x768_S64x256_0_512))

/-- The block of window `w`'s array at grid point `t`. -/
abbrev inBlk (c : Dev nD) (w : Fin 3) (t : Fin (cfgA (F := F)).N) : ((cfgA (F := F)).win w).block.Idx → Elt F ((cfgA (F := F)).win w).elt :=
  (((cfgA (F := F)).win w).blk t).view.read (Elt F) (V2 m ρ c (Pipeline.arrRef spec0 w))

/-- Each table's word at the grid point's own position. -/
abbrev tw0 (t : Fin (cfgA (F := F)).N) : BitVec 32 :=
  (tbl (F := F)).at 0 (Rect.unit (s := S36) (k0_off1 (grid0.coords t)) S1.size (k0_off1_inb (grid0.coords t))) numel1_S1
abbrev tw1 (t : Fin (cfgA (F := F)).N) : BitVec 32 :=
  (tbl (F := F)).at 1 (Rect.unit (s := S36) (k0_off1 (grid0.coords t)) S1.size (k0_off1_inb (grid0.coords t))) numel1_S1

/-- The invariant between points: the two tables at their contents, and the scoped buffers no window stages. -/
def Φc (c : Dev nD) : sProp 𝕄 :=
  iprop(Pipeline.prefHeld pre0 c (fun _ => fullShare) (tbl (F := F))
    ∗ Pipeline.scopedRest (Ix := Unit) (Name := ℕ) (U := UR sig nD τ) (Lvl := ℕ) (Val := Elt F) spec0 c)

/-- The proof data on core `c`. The gathered array is held in two halves, one per input window. -/
def dats (_ : Fin 1) (c : Dev nD) : Dat τ (Elt F) Unit ℕ (UR sig nD τ) ℕ (cfgA (F := F)) c where
  A w := V2 m ρ c (Pipeline.arrRef spec0 w)
  after w t := match w with
    | ⟨0, _⟩ => inBlk m ρ c 0 t
    | ⟨1, _⟩ => inBlk m ρ c 1 t
    | ⟨2, _⟩ => outBlk (tw0 (F := F) t) (tw1 (F := F) t) (inBlk m ρ c 0 t) (inBlk m ρ c 1 t)
  Φ _ := Φc c
  q w := match w with
    | ⟨0, _⟩ => fullShare.left
    | ⟨1, _⟩ => fullShare.right
    | ⟨2, _⟩ => fullShare
  owed _ := 0

abbrev 𝒱₀ : Variants := Variants.none

/-! ## What the staging buffers hold when the body runs -/

/-- An input window's buffer holds the block of its array at the point's block index, whether the block was fetched
    at this point or at an earlier one with the same index. -/
theorem before_in0 (c : Dev nD) (t : Fin (cfgA (F := F)).N) (d) : (dats m ρ 0 c).before 0 t d = inBlk m ρ c 0 t := by
  rw [(dats m ρ 0 c).before_in_eq_fetched 0 rfl (fun _ => rfl) (fun _ _ _ => rfl) (fun _ => rfl) t d]
  rfl

theorem before_in1 (c : Dev nD) (t : Fin (cfgA (F := F)).N) (d) : (dats m ρ 0 c).before 1 t d = inBlk m ρ c 1 t := by
  rw [(dats m ρ 0 c).before_in_eq_fetched 1 rfl (fun _ => rfl) (fun _ _ _ => rfl) (fun _ => rfl) t d]
  rfl

end Cert.Proof.KB

end
-- ==== Proof.KB.Oblig.lean ====
/-
  The body obligation: at every grid point, from the invariant and the three current staging buffers at what
  they hold when the body runs, the body runs to the invariant and the buffers at what the proof data says it
  leaves — the two input blocks as found, the output block overwritten whole by the tile's block.
-/
import proofs.«412813_j26139170964397_3_alg».proof.Proof.KB.Data

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- The two tables conjoined one by one. -/
theorem bigSep_T2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- A chunk loaded from a whole staging buffer whose block reads `X` is that chunk of `X`. -/
theorem chunk_unread (c : Dev nD) (M : Memref sig .tc .vmem S64x768 .f32) (h : M.IsWhole) (X : S64x768.Idx → Elt F .f32) (off : Nat)
    (hb : ∀ a, (![0, off] : Fin 2 → Nat) a + S64x256.size a ≤ S64x768.size a) :
    chunk c M (h.unread X) off hb = ck X off hb := by
  unfold chunk ck
  rw [View.readAt_eq_ld, h.read_unread]

/-- Each table's word, read through the whole table, is the table's entry at the point's position. -/
theorem word0_eq (c : Dev nD) (i : grid0.Coords) :
    wordAt c i (Memref.whole main_c) (tbl (F := F) 0)
      = (tbl (F := F)).at 0 (Rect.unit (s := S36) (k0_off1 i) S1.size (k0_off1_inb i)) numel1_S1 := rfl
theorem word1_eq (c : Dev nD) (i : grid0.Coords) :
    wordAt c i (Memref.whole main_c_0) (tbl (F := F) 1)
      = (tbl (F := F)).at 1 (Rect.unit (s := S36) (k0_off1 i) S1.size (k0_off1_inb i)) numel1_S1 := rfl

/-- The one store covers the whole output block, so afterwards the buffer reads as the stored value, which is the
    tile's block of the point's two table words and two input blocks. -/
theorem out_pure (c : Dev nD) (t : Fin (cfgA (F := F)).N)
    (h3 : (stage0_0 ((cfgA (F := F)).slots t 0)).IsWhole) (h4 : (stage0_1 ((cfgA (F := F)).slots t 1)).IsWhole)
    (f2 : BufTy.Contents (Elt F) (stage0_2 ((cfgA (F := F)).slots t 2)).view.ty) :
    View.read (Elt F) (stage0_2 ((cfgA (F := F)).slots t 2)).view
        ((stage0_2 ((cfgA (F := F)).slots t 2)).view.writes (Elt F) f2
          [⟨Rect.unit (s := S1x8x128) ![0, 0, 0] S1x8x128.size inb_S1x8x128_S1x8x128_0_0_0,
            outVal c (grid0.coords t) (stage0_0 ((cfgA (F := F)).slots t 0)) (stage0_1 ((cfgA (F := F)).slots t 1)) (tbl (F := F) 0) (tbl (F := F) 1)
              (h3.unread (inBlk m ρ c 0 t)) (h4.unread (inBlk m ρ c 1 t))⟩])
      = outBlk (tw0 (F := F) t) (tw1 (F := F) t) (inBlk m ρ c 0 t) (inBlk m ρ c 1 t) := by
  have hz : (![0, 0, 0] : Fin 3 → Nat) = fun _ => 0 := by funext a; fin_cases a <;> rfl
  rw [View.read_writes_eq_canon _ _ _ (fun y => ⟨_, List.mem_singleton_self _, View.mem_set_unit_zero hz inb_S1x8x128_S1x8x128_0_0_0 y⟩),
    View.canon_unit_zero hz]
  unfold outVal outBlk
  rw [word0_eq, word1_eq]
  rw [chunk_unread c _ h3, chunk_unread c _ h3, chunk_unread c _ h3, chunk_unread c _ h4, chunk_unread c _ h4, chunk_unread c _ h4]

/-- The body's program at a point is the kernel function called at the point's coordinates, the two tables and the
    windows' current staging buffers. -/
theorem body_at (t : Fin (cfgA (F := F)).N) :
    defs₀ (F := F) Proc.tc (0 : Fin 1) (t, (cfgA (F := F)).slots t)
      = cc0__kernel (grid0.coords t) (Memref.whole main_c) (Memref.isWhole_whole _) (Memref.whole main_c_0) (Memref.isWhole_whole _)
          (stage0_0 ((cfgA (F := F)).slots t 0)) (hstage0_0 ((cfgA (F := F)).slots t 0))
          (stage0_1 ((cfgA (F := F)).slots t 1)) (hstage0_1 ((cfgA (F := F)).slots t 1))
          (stage0_2 ((cfgA (F := F)).slots t 2)) (hstage0_2 ((cfgA (F := F)).slots t 2)) := rfl

theorem body_obligation (c : Dev nD) : BodyObligation (dats m ρ 0 c) (defs₀ (F := F)) 𝒱₀ () Set.univ := fun t => by
  rw [bigSep_W0, bigSep_W0]
  dsimp only
  rw [show (dats m ρ 0 c).Φ t.castSucc = Φc c from rfl, show (dats m ρ 0 c).Φ t.succ = Φc c from rfl]
  unfold Φc Dat.owesAt Pipeline.owesWithin; rw [scopedRest0_eq]
  rw [show (dats m ρ 0 c).owed t.castSucc = 0 from rfl, show (dats m ρ 0 c).owed t.succ = 0 from rfl]
  simp only [before_in0 m ρ c t, before_in1 m ρ c t]
  rw [show (dats m ρ 0 c).after 0 t = inBlk m ρ c 0 t from rfl, show (dats m ρ 0 c).after 1 t = inBlk m ρ c 1 t from rfl,
    show (dats m ρ 0 c).after 2 t = outBlk (tw0 (F := F) t) (tw1 (F := F) t) (inBlk m ρ c 0 t) (inBlk m ρ c 1 t) from rfl]
  unfold Pipeline.prefHeld owns
  rw [bigSep_T2]
  dsimp only
  have h3 := hstage0_0 (cfgA.slots t 0)
  have h4 := hstage0_1 (cfgA.slots t 1)
  have h5 := hstage0_2 (cfgA.slots t 2)
  rw [h3.set_eq_univ, h4.set_eq_univ, h5.set_eq_univ]
  iintro ⟨⟨⟨Ht0, Ht1⟩, -⟩, ⟨%W, %hW, HO⟩, ⟨%d0, %f0, %hf0, H0⟩, ⟨%d1, %f1, %hf1, H1⟩, ⟨%d2, %f2, %hf2, H2⟩⟩
  obtain rfl := h3.eq_unread hf0
  obtain rfl := h4.eq_unread hf1
  rw [before_in0 m ρ c t d0, before_in1 m ρ c t d1]
  rw [body_at (F := F) t]
  iapply (kernelRun c (grid0.coords t) (stage0_0 ((cfgA (F := F)).slots t 0)) (stage0_1 ((cfgA (F := F)).slots t 1)) h3 h4
    (stage0_2 ((cfgA (F := F)).slots t 2)) h5 fullShare fullShare (tbl (F := F) 0) (tbl (F := F) 1)
    (h3.unread (inBlk m ρ c 0 t)) (h4.unread (inBlk m ρ c 1 t)) f2)
  isplitl [Ht0]; · iexact Ht0
  isplitl [Ht1]; · iexact Ht1
  isplitl [H0]; · iexact H0
  isplitl [H1]; · iexact H1
  isplitl [H2]; · iexact H2
  iintro ⟨Ht0, Ht1, H0, H1, H2⟩
  isplitl [Ht0 Ht1]
  · isplitl [Ht0 Ht1]
    · isplitl [Ht0]; · iexact Ht0
      iexact Ht1
    iempintro
  isplitl [HO]
  · iexists W; isplitr; · ipureintro; exact fun _ _ => Or.inl trivial
    iexact HO
  isplitl [H0]
  · iexists _; isplitr; · ipureintro; exact h3.read_unread _
    iexact H0
  isplitl [H1]
  · iexists _; isplitr; · ipureintro; exact h4.read_unread _
    iexact H1
  iexists _; isplitr; swap; · iexact H2
  ipureintro
  exact out_pure m ρ c t h3 h4 f2

end Cert.Proof.KB

end
-- ==== Proof.KB.Bufs.lean ====
/-
  The buffers around the region.

  Entering the region, the TensorCore's unscoped buffers are sorted out into the windows' arrays, the two tables
  and the rest. The gathered array is read by both input windows and written by neither, so it is split into two
  halves, one per window; the result's buffer goes whole to the output window. Leaving the region the halves are
  joined again and the result's buffer holds what the write-backs left; every other buffer is as it was.
-/
import proofs.«412813_j26139170964397_3_alg».proof.Proof.KB.Data

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the region: the result's buffer holds what the 36 write-backs left, everything else is as the
    gather left it. -/
def V3 (c : Dev nD) : Valuation τ sig (Elt F) :=
  Function.update (V2v m ρ c) (Proc.devRef .tc main_v1) ((dats m ρ 0 c).arrAt 2 (cfgA (F := F)).N)

/-! ## The tables when the region is entered -/

theorem V1_c (c : Dev nD) : V1 m ρ c (Proc.devRef .tc main_c) = tbl (F := F) 0 := by
  show StableHlo.after hostOps0 (V₀ m ρ c) (Proc.devRef .tc main_c) = _
  after_results
  rfl

theorem V1_c_0 (c : Dev nD) : V1 m ρ c (Proc.devRef .tc main_c_0) = tbl (F := F) 1 := by
  show StableHlo.after hostOps0 (V₀ m ρ c) (Proc.devRef .tc main_c_0) = _
  after_results
  rfl

/-- The gather writes neither argument and neither table. -/
theorem gather_keeps (V : Valuation τ sig (Elt F)) (b : Ref sig .tc)
    (hb : b = main_arg0 ∨ b = main_arg1 ∨ b = main_c ∨ b = main_c_0) :
    StableHlo.after (hostOps0_1 (F := F)) V (Proc.devRef .tc b) = V (Proc.devRef .tc b) := by
  rcases hb with rfl | rfl | rfl | rfl
  all_goals
    simp only [hostOps0_1]
    after_results_simp

/-- Both tables reach the region at their constants. -/
theorem V2_tables (c : Dev nD) : (fun k => V2 m ρ c (pre0.ref k)) = tbl (F := F) := by
  funext k
  match k with
  | ⟨0, _⟩ => exact (gather_keeps (V1 m ρ c) main_c (.inr (.inr (.inl rfl)))).trans (V1_c m ρ c)
  | ⟨1, _⟩ => exact (gather_keeps (V1 m ρ c) main_c_0 (.inr (.inr (.inr rfl)))).trans (V1_c_0 m ρ c)

/-! ## The proof data's arrays as points-tos -/

/-- The windows' arrays are whole buffers: `arrays` is each window's buffer at the window's share. -/
theorem arrays_shares (c : Dev nD) (G : (w : Fin (cfgA (F := F)).W) → Buf (Elt F) (((cfgA (F := F)).spec w).arr.view.loc (c : Thread nD τ))) :
    ((dats m ρ 0 c).arrays G : sProp 𝕄)
      = bigSep Finset.univ fun w => (((c : Thread nD τ).loc (Pipeline.arrRef (cfgA (F := F)).spec w)) ↦{(dats m ρ 0 c).share w} G w : sProp 𝕄) := by
  unfold Dat.arrays
  exact bigSep_congr fun w _ => by rw [(harr0 w).set_eq_univ]

/-- The buffers behind the arrays: the gathered array and the result's buffer. -/
theorem arrBufs_two (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- A TensorCore's unscoped buffers are those two, the two tables, and the rest. -/
theorem unscoped_split (c : Dev nD) (V : (b : Ref sig .tc) → Buf (Elt F) ((c : Thread nD τ).loc b)) :
    (unscopedBufs c V : sProp 𝕄)
      = iprop(((((c : Thread nD τ).loc main_v0) ↦{fullShare} V main_v0) ∗ (((c : Thread nD τ).loc main_v1) ↦{fullShare} V main_v1))
          ∗ Pipeline.prefHeld pre0 c (fun _ => fullShare) (fun k => V (pre0.ref k)) ∗ Pipeline.unscopedRestP pre0 spec0 c V) := by
  rw [Pipeline.unscopedBufs_split₀ (Pipeline.pin (pcfgs (F := F)) adm) (0 : Fin 1) winFacts₀0.arr_unscoped c V, Pipeline.unscopedRest_split preFacts0 c V,
    arrBufs_two]

/-! ## Entering and leaving the region -/

/-- A buffer held whole is held in two halves, and back. -/
theorem halve (c : Dev nD) (f : Buf (Elt F) ((c : Thread nD τ).loc main_v0)) :
    (((c : Thread nD τ).loc main_v0) ↦{fullShare} f : sProp 𝕄)
      ⊢ iprop((((c : Thread nD τ).loc main_v0) ↦{fullShare.left} f) ∗ (((c : Thread nD τ).loc main_v0) ↦{fullShare.right} f)) :=
  (pointsTo_share (PosShare.mem_left_op_right fullShare)).1
theorem rejoin (c : Dev nD) (f : Buf (Elt F) ((c : Thread nD τ).loc main_v0)) :
    iprop((((c : Thread nD τ).loc main_v0) ↦{fullShare.left} f) ∗ (((c : Thread nD τ).loc main_v0) ↦{fullShare.right} f))
      ⊢ (((c : Thread nD τ).loc main_v0) ↦{fullShare} f : sProp 𝕄) :=
  (pointsTo_share (PosShare.mem_left_op_right fullShare)).2

/-- ENTRY: the unscoped buffers as the gather left them give the windows' arrays at their entry contents (the gathered
    array halved between the two input windows), the two tables at their constants, and the rest. -/
theorem entry_split (c : Dev nD) :
    (StableHlo.held (c : Thread nD τ) (ucRefs τ sig) (V2v m ρ c) : sProp 𝕄)
      ⊢ iprop((dats m ρ 0 c).arrays ((dats m ρ 0 c).arrAt · 0) ∗ Pipeline.prefHeld pre0 c (fun _ => fullShare) (tbl (F := F))
          ∗ Pipeline.unscopedRestP pre0 spec0 c (V2 m ρ c)) := by
  rw [← Pipeline.unscopedBufs_held (Ix := Unit) (Name := ℕ) (U := UR sig nD τ) (Lvl := ℕ) c (V2v m ρ c)]
  rw [unscoped_split c (V2 m ρ c), V2_tables, arrays_shares, bigSep_W0]
  iintro ⟨⟨H0, H1⟩, Ht, Hr⟩
  ihave Hs := (halve c (V2 m ρ c main_v0)) $$ H0
  icases Hs with ⟨Ha, Hb⟩
  isplitl [Ha Hb H1]
  · isplitl [Ha]; · iexact Ha
    isplitl [Hb]; · iexact Hb
    iexact H1
  isplitl [Ht]; · iexact Ht
  iexact Hr

/-- After the region every buffer but the result's is as the gather left it; -/
theorem V3_of_ne (c : Dev nD) (b : Ref sig .tc) (hb : b ≠ main_v1) : V3 m ρ c (Proc.devRef .tc b) = V2 m ρ c b :=
  Function.update_of_ne (StableHlo.devRef_ne_of_ne hb) _ _
/-- the result's holds what the write-backs left. -/
theorem V3_v1 (c : Dev nD) : V3 m ρ c (Proc.devRef .tc main_v1) = (dats m ρ 0 c).arrAt 2 (cfgA (F := F)).N :=
  Function.update_self _ _ _

theorem V3_tables (c : Dev nD) : (fun k => V3 m ρ c (Proc.devRef .tc (pre0.ref k))) = tbl (F := F) := by
  funext k
  match k with
  | ⟨0, _⟩ => exact (V3_of_ne m ρ c main_c (by decide)).trans (congrFun (V2_tables m ρ c) 0)
  | ⟨1, _⟩ => exact (V3_of_ne m ρ c main_c_0 (by decide)).trans (congrFun (V2_tables m ρ c) 1)

theorem V3_rest (c : Dev nD) :
    (Pipeline.unscopedRestP pre0 spec0 c (fun b => V3 m ρ c (Proc.devRef .tc b)) : sProp 𝕄) = Pipeline.unscopedRestP pre0 spec0 c (V2 m ρ c) := by
  unfold Pipeline.unscopedRestP
  refine bigSep_congr fun b hb => ?_
  dsimp only
  rw [V3_of_ne m ρ c b (fun h => by subst h; exact absurd hb (by decide))]

/-- EXIT: the arrays at their final contents (the input array's two halves joined, the result's buffer at what the
    write-backs left), the tables and the rest are the unscoped buffers at the valuation after the region. -/
theorem exit_join (c : Dev nD) :
    iprop((dats m ρ 0 c).arrays ((dats m ρ 0 c).arrAt · (cfgA (F := F)).N) ∗ Pipeline.prefHeld pre0 c (fun _ => fullShare) (tbl (F := F))
          ∗ Pipeline.unscopedRestP pre0 spec0 c (V2 m ρ c))
      ⊢ (StableHlo.held (c : Thread nD τ) (ucRefs τ sig) (V3 m ρ c) : sProp 𝕄) := by
  rw [← Pipeline.unscopedBufs_held (Ix := Unit) (Name := ℕ) (U := UR sig nD τ) (Lvl := ℕ) c (V3 m ρ c)]
  rw [unscoped_split c (fun b => V3 m ρ c (Proc.devRef .tc b)), V3_tables, V3_rest, V3_v1, V3_of_ne m ρ c main_v0 (by decide), arrays_shares, bigSep_W0]
  dsimp only
  rw [(dats m ρ 0 c).arrAt_in 0 rfl, (dats m ρ 0 c).arrAt_in 1 rfl]
  iintro ⟨⟨Ha, Hb, H1⟩, Ht, Hr⟩
  ihave H0 := (rejoin c (V2 m ρ c main_v0)) $$ [Ha Hb]
  · isplitl [Ha]; · iexact Ha
    iexact Hb
  isplitl [H0 H1]
  · isplitl [H0]; · iexact H0
    iexact H1
  isplitl [Ht]; · iexact Ht
  iexact Hr

end Cert.Proof.KB

end
-- ==== Proof.KB.Run.lean ====
/-
  The kernel program's run, as four segments of @main: the two table constants, the gather of the rows, the
  pipeline's region, and the final sum of the 36 × 8 × 128 result.

  Every weakly fair execution on the TensorCores terminates without a fault; at the end the two arguments hold what
  they held at launch and every buffer holds the value the host operations and the pipeline's write-backs compute.
  The region is entered from the buffers the host operations left: the gathered array is split in two halves, one
  per input window (both windows read it; neither writes it), the result's buffer goes to the output window, the
  two tables go to the pipeline's invariant, and everything else bypasses the region. At the exit the halves are
  joined again and the result's buffer holds the 36 blocks the points wrote.
-/
import proofs.«412813_j26139170964397_3_alg».proof.Proof.KB.Oblig
import proofs.«412813_j26139170964397_3_alg».proof.Proof.KB.Bufs

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

/-- The pipeline library's algebra is the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0

/-- What rides beside the buffers through every segment: the core's `owes`, at nothing owed. -/
abbrev R (c : Dev nD) : sProp 𝕄 := iprop(∃ W, owes (c : Thread nD τ) (0 : CellTallies nD τ sig Unit) W)

/-- The buffers at the end: the final sum has run. -/
abbrev V4 (c : Dev nD) : Valuation τ sig (Elt F) := StableHlo.after hostOps1 (V3 m ρ c)

/-! ## The host segments -/

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    fresh0 (V₀ m ρ) R

def seg1 : Pipeline.HostSeg (Name := ℕ) (U := UR sig nD τ) (pcfgs (F := F)) defs₀ 𝒱₀ L lv :=
  Pipeline.HostSeg.ofOps _ _ _ _ _ (ucRefs τ sig) hostOps0_1 (fun op h => Pipeline.sub_ucRefs op ((List.forall_iff_forall_mem.mp hostOps0_1_sub) op h))
    fresh0_1 (V1 m ρ) R

def seg2 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    fresh1 (V3 m ρ) R

/-! ## The region -/

set_option backward.isDefEq.respectTransparency.types false in
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (ucRefs τ sig) (V2v m ρ c) ∗ R c)
  post c := iprop(StableHlo.held (c : Thread nD τ) (ucRefs τ sig) (V3 m ρ c) ∗ R c)
  X c := iprop(emp)
  Y c := Pipeline.prefHeld pre0 c (fun _ => fullShare) (tbl (F := F))
  Z c := Pipeline.unscopedRestP pre0 spec0 c (V2 m ρ c)
  hentry c := by
    iintro ⟨⟨Hh, HO⟩, -, -⟩
    ihave H := (entry_split m ρ c) $$ Hh
    icases H with ⟨Ha, Ht, Hr⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ 0 c).Φ 0 = Φc c from rfl]; unfold Φc
    iintro ⟨-, Ht, Hr⟩
    isplitl [Ht]; · iexact Ht
    iexact Hr
  hout c := by
    rw [show (dats m ρ 0 c).Φ (Fin.last (cfgA (F := F)).N) = Φc c from rfl]; unfold Φc Pipeline.ownSems0
    rw [Finset.univ_eq_empty, BI.bigSep_empty]
    iintro ⟨Ht, Hr⟩
    isplitl [Ht]; · iexact Ht
    isplitr; · iempintro
    iexact Hr
  hexit c := by
    iintro ⟨Ha, HO, HY, HZ⟩
    imodintro
    isplitr [HO]
    · iapply (exit_join m ρ c)
      isplitl [Ha]; · iexact Ha
      isplitl [HY] <;> iassumption
    · unfold Pipeline.Dat.owesAt Pipeline.owesWithin
      icases HO with ⟨%W, -, HO⟩; iexists W; iexact HO

/-- @main as the list of the four. -/
abbrev segs : List (Pipeline.Seg (pcfgs (F := F)) adm (dats m ρ) () defs₀ 𝒱₀ L lv) :=
  [.host (seg0 m ρ), .host (seg1 m ρ), .region (reg0 m ρ), .host (seg2 m ρ)]

/-- The launch element: the pipeline library's at the staging cells. -/
def u₀ : UR sig nD τ :=
  initOf (Pipeline.cells (Pipeline.pin (pcfgs (F := F)) adm) (cellOf_inj adm)) (Pipeline.launchToks (Pipeline.pin (pcfgs (F := F)) adm) (cellOf_inj adm))

/-- The physical post: the result and the two arguments at their final values. -/
def QC : PUnit × MemSt nD τ sig (Elt F) → Prop := fun r =>
  ∀ c : Dev nD, r.2.mem ((c : Thread nD τ).loc main_v2) = V4 m ρ c (Proc.devRef .tc main_v2)
    ∧ r.2.mem ((c : Thread nD τ).loc main_arg0) = V4 m ρ c (Proc.devRef .tc main_arg0)
    ∧ r.2.mem ((c : Thread nD τ).loc main_arg1) = V4 m ρ c (Proc.devRef .tc main_arg1)

/-- The result and the two arguments, held one by one. -/
theorem held_three (c : Dev nD) (V : Valuation τ sig (Elt F)) :
    (StableHlo.held (c : Thread nD τ) ({Proc.devRef .tc main_v2, Proc.devRef .tc main_arg0, Proc.devRef .tc main_arg1} : Finset (DevRef τ sig)) V : sProp 𝕄)
      = iprop((((c : Thread nD τ).1, Proc.devRef .tc main_v2) ↦{fullShare} V (Proc.devRef .tc main_v2))
          ∗ (((c : Thread nD τ).1, Proc.devRef .tc main_arg0) ↦{fullShare} V (Proc.devRef .tc main_arg0))
          ∗ (((c : Thread nD τ).1, Proc.devRef .tc main_arg1) ↦{fullShare} V (Proc.devRef .tc main_arg1))) := by
  unfold StableHlo.held
  exact bigSep_eq_bigSepL_of_eq [Proc.devRef .tc main_v2, Proc.devRef .tc main_arg0, Proc.devRef .tc main_arg1] (by decide) (by decide) _

/-- The three buffers the claims speak of are among the TensorCore's unscoped buffers. -/
theorem three_sub : ({Proc.devRef .tc main_v2, Proc.devRef .tc main_arg0, Proc.devRef .tc main_arg1} : Finset (DevRef τ sig)) ⊆ ucRefs τ sig := by
  decide

set_option backward.isDefEq.respectTransparency.types false in
theorem run_main : θ_run defs (onTc (τ := τ) (main (F := F))) (s₀ m ρ) (QC m ρ) :=
  Pipeline.θ_run_regions_kit (pcfgs (F := F)) adm (dats m ρ) () (cellOf_inj adm) EP defs₀ 𝒱₀ L lv m ρ main (segs m ρ)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (V4 m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v2) = V4 m ρ c (Proc.devRef .tc main_v2)
      ∧ s.mem ((c : Thread nD τ).loc main_arg0) = V4 m ρ c (Proc.devRef .tc main_arg0)
      ∧ s.mem ((c : Thread nD τ).loc main_arg1) = V4 m ρ c (Proc.devRef .tc main_arg1))
    (hfin := fun c s' => by
      refine Entails.trans (sep_mono (BI.bigSep_subset three_sub) .rfl) ?_
      rw [show bigSep ({Proc.devRef .tc main_v2, Proc.devRef .tc main_arg0, Proc.devRef .tc main_arg1} : Finset (DevRef τ sig))
            (fun b => (((c : Thread nD τ).1, b) ↦{fullShare} V4 m ρ c b : sProp 𝕄))
          = StableHlo.held (c : Thread nD τ) _ (V4 m ρ c) from rfl, held_three]
      iintro ⟨⟨H2, H0, H1⟩, HSI⟩
      icombine HSI H2 gives %h2
      icombine HSI H0 gives %h0
      icombine HSI H1 gives %h1
      imodintro
      isplitr; · ipureintro; exact ⟨Buf.eq_of_forall_mem_univ h2, Buf.eq_of_forall_mem_univ h0, Buf.eq_of_forall_mem_univ h1⟩
      iexact HSI)
    (hQ := fun _ h => h)

/-! ## The arguments end as they began -/

/-- No operation of @main writes an argument: the table constants, -/
theorem V1_arg0 (c : Dev nD) : V1 m ρ c (Proc.devRef .tc main_arg0) = m ((c : Thread nD τ).loc main_arg0) := by
  show StableHlo.after hostOps0 (V₀ m ρ c) (Proc.devRef .tc main_arg0) = _
  after_results
theorem V1_arg1 (c : Dev nD) : V1 m ρ c (Proc.devRef .tc main_arg1) = m ((c : Thread nD τ).loc main_arg1) := by
  show StableHlo.after hostOps0 (V₀ m ρ c) (Proc.devRef .tc main_arg1) = _
  after_results

/-- the gather, the region (which writes the result's buffer only) and the final sum neither. -/
theorem V4_arg0 (c : Dev nD) : V4 m ρ c (Proc.devRef .tc main_arg0) = m ((c : Thread nD τ).loc main_arg0) := by
  have e : V4 m ρ c (Proc.devRef .tc main_arg0) = V3 m ρ c (Proc.devRef .tc main_arg0) := by
    show StableHlo.after hostOps1 (V3 m ρ c) (Proc.devRef .tc main_arg0) = _
    after_results
  rw [e, V3_of_ne m ρ c main_arg0 (by decide)]
  exact (gather_keeps (V1 m ρ c) main_arg0 (.inl rfl)).trans (V1_arg0 m ρ c)
theorem V4_arg1 (c : Dev nD) : V4 m ρ c (Proc.devRef .tc main_arg1) = m ((c : Thread nD τ).loc main_arg1) := by
  have e : V4 m ρ c (Proc.devRef .tc main_arg1) = V3 m ρ c (Proc.devRef .tc main_arg1) := by
    show StableHlo.after hostOps1 (V3 m ρ c) (Proc.devRef .tc main_arg1) = _
    after_results
  rw [e, V3_of_ne m ρ c main_arg1 (by decide)]
  exact (gather_keeps (V1 m ρ c) main_arg1 (.inr (.inl rfl))).trans (V1_arg1 m ρ c)

/-- The result is the sum, from zero, of everything the region left in its output array. -/
theorem V4_result (c : Dev nD) :
    V4 m ρ c (Proc.devRef .tc main_v2)
      = Host.reduceAdd (F := F) ((dats m ρ 0 c).arrAt 2 (cfgA (F := F)).N) (constant (F := F) S_ .f32 0x00000000#32) reducesTo_S36x8x128_S_d0_1_2 h_S_ := by
  show StableHlo.after hostOps1 (V3 m ρ c) (Proc.devRef .tc main_v2) = _
  after_results
  rw [V3_v1]
  rfl

/-- THE FRAME: every weakly fair execution terminates, nothing faults, and both arguments end unchanged. -/
theorem frame_main :
    θ_run defs (onTc (τ := τ) (main (F := F))) (s₀ m ρ) (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).2.1.trans (V4_arg0 m ρ c), (h c).2.2.trans (V4_arg1 m ρ c)⟩) (run_main m ρ)

end Cert.Proof.KB

end
-- ==== Proof.lean ====
/-
  The certificate: a pairwise clamped-difference loss computed tile by tile on the TensorCore against its
  whole-array reference.

  Both programs gather rows r = repr[GT] (negative indices wrapped) and return Σ_{i<j} √(Σₙ max(r_i[n] − r_j[n], 0)²).
  The kernel program visits the 36 pairs (a, b), a ≤ b, of 64-row blocks, forms each tile's sum in its own order (three
  256-lane chunks accumulated per lane, one lane sum, the strictly-upper mask, rows then columns), stores it in one
  entry of a padded block and sums the padded array on the host; tiles below the diagonal hold no pair i < j. On the
  extended reals these are regroupings of one commutative, associative sum, so the two results are equal for all
  entries of repr, finite or not. What is needed of the inputs is that every index lies in [-512, 512): outside it
  the reference indexes out of range and the kernel program's gather fills the row instead of clamping.
  The three frames: each program runs to its end without a fault and leaves both arguments as they were; the kernel
  program's by the pipeline's launch over the region's entry and exit (the gathered array lent to both input
  windows in halves), the reference's by its straight-line run. The idealization rewrote nothing.
-/
import proofs.«412813_j26139170964397_3_alg».proof.Defs
import proofs.«412813_j26139170964397_3_alg».proof.Proof.Gen.Kernel
import proofs.«412813_j26139170964397_3_alg».proof.Proof.Gen.KernelIdeal
import proofs.«412813_j26139170964397_3_alg».proof.Proof.Gen.ReferenceIdeal
import proofs.«412813_j26139170964397_3_alg».proof.Proof.Gen.ReferenceIdeal.Run
import proofs.«412813_j26139170964397_3_alg».proof.Proof.Gen.ReferenceIdeal.Read
import proofs.«412813_j26139170964397_3_alg».proof.Proof.Gen.Pre_finite_inputs
import proofs.«412813_j26139170964397_3_alg».proof.Proof.Final
import proofs.«412813_j26139170964397_3_alg».proof.Proof.KB.Run

noncomputable section

namespace Cert.Proof

open Idealize.ShloMosaic Idealize.ShloMosaic.TcCoe Idealize.SL.Sem

theorem frame_k : Cert.frame_Kernel := fun m ρ _ => Cert.Proof.KB.frame_main m ρ

theorem frame_ki : Cert.frame_KernelIdeal := fun m ρ _ => Cert.Proof.KI.frame_main m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the kernel program's result: the reference's is
    the same number. -/
theorem algebraic : Cert.algebraic_KernelIdeal_ReferenceIdeal := by
  intro m ρ m' ρ' hpre hagree
  refine ⟨fun c => Cert.Proof.KI.V4 m ρ c (Proc.devRef .tc Cert.KernelIdeal.main_v2), ?_, ?_⟩
  · exact (θ_run Cert.KernelIdeal.defs _ _).mono
      (fun _ h c => ⟨(h c).1, (h c).2.1.trans (Cert.Proof.KI.V4_arg0 m ρ c), (h c).2.2.trans (Cert.Proof.KI.V4_arg1 m ρ c)⟩)
      (Cert.Proof.KI.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2]
    exact (Cert.Proof.KI.result_eq_ref m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
